-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x6 : Shape := ⟨2, ![8388608, 6]⟩
abbrev S8388608 : Shape := ⟨1, ![8388608]⟩
abbrev S_ : Shape := ⟨0, ![]⟩

class Facts : Prop where
  bcast_S_S8388608x6 : S_.BroadcastsInDim S8388608x6 (![] : Fin 0 → Fin S8388608x6.rank)
  reducesTo_S8388608x6_S_d0_1 : S8388608x6.ReducesTo [0, 1] S_
  h_S_ : 0 < S_.numel
  bcast_S_S8388608 : S_.BroadcastsInDim S8388608 (![] : Fin 0 → Fin S8388608.rank)
  reducesTo_S8388608_S_d0 : S8388608.ReducesTo [0] S_

variable [Facts]

def fn {F : FTy → Type} [FloatOps F] (main_arg0 : FVec F S8388608x6 .f32) (main_arg1 : IVec S8388608 32) : IVec S_ 1 :=
  let main_v0 : FVec F S8388608x6 .f32 := Host.absf main_arg0
  let main_cst : FVec F S_ .f32 := constant S_ .f32 0x7F800000#32
  let main_v1 : FVec F S8388608x6 .f32 := broadcastInDim S8388608x6 ![] bcast_S_S8388608x6 main_cst
  let main_v2 : IVec S8388608x6 1 := cmpf .olt main_v0 main_v1
  let main_c : IVec S_ 1 := constantI S_ 1 1#1
  let main_v3 : IVec S_ 1 := (fun x v => Host.reduce IntOp.andi x v reducesTo_S8388608x6_S_d0_1 h_S_) main_v2 main_c
  let main_c_0 : IVec S_ 32 := constantI S_ 32 0#32
  let main_v4 : IVec S8388608 32 := broadcastInDim S8388608 ![] bcast_S_S8388608 main_c_0
  let main_v5 : IVec S8388608 1 := cmpi .sge main_arg1 main_v4
  let main_c_1 : IVec S_ 1 := constantI S_ 1 1#1
  let main_v6 : IVec S_ 1 := (fun x v => Host.reduce IntOp.andi x v reducesTo_S8388608_S_d0 h_S_) main_v5 main_c_1
  let main_v7 : IVec S_ 1 := andi main_v3 main_v6
  let main_c_2 : IVec S_ 32 := constantI S_ 32 6#32
  let main_v8 : IVec S8388608 32 := broadcastInDim S8388608 ![] bcast_S_S8388608 main_c_2
  let main_v9 : IVec S8388608 1 := cmpi .slt main_arg1 main_v8
  let main_c_3 : IVec S_ 1 := constantI S_ 1 1#1
  let main_v10 : IVec S_ 1 := (fun x v => Host.reduce IntOp.andi x v reducesTo_S8388608_S_d0 h_S_) main_v9 main_c_3
  let main_v11 : IVec S_ 1 := andi main_v7 main_v10
  main_v11
-- ==== Kernel.lean ====
abbrev S8388608x6 : Shape := ⟨2, ![8388608, 6]⟩
abbrev S8388608 : Shape := ⟨1, ![8388608]⟩
abbrev S6x8388608 : Shape := ⟨2, ![6, 8388608]⟩
abbrev S1x8388608 : Shape := ⟨2, ![1, 8388608]⟩
abbrev S2x1x1 : Shape := ⟨3, ![2, 1, 1]⟩
abbrev S6x65536 : Shape := ⟨2, ![6, 65536]⟩
abbrev S1x65536 : Shape := ⟨2, ![1, 65536]⟩
abbrev S1x1x1 : Shape := ⟨3, ![1, 1, 1]⟩
abbrev S65536 : Shape := ⟨1, ![65536]⟩
abbrev S1 : Shape := ⟨1, ![1]⟩
abbrev S1x1 : Shape := ⟨2, ![1, 1]⟩
abbrev S_ : Shape := ⟨0, ![]⟩

abbrev nBuf : Space → Nat
  | .hbm => 9
  | .vmem => 8
  | .smem => 0
  | _ => 0

abbrev bufTy : (tb : Table) → Fin (tcTables nBuf tb) → BufTy
  | .hbm, ⟨0, _⟩ => ⟨S8388608x6, .f32⟩
  | .hbm, ⟨1, _⟩ => ⟨S8388608, .i32⟩
  | .hbm, ⟨2, _⟩ => ⟨S6x8388608, .f32⟩
  | .hbm, ⟨3, _⟩ => ⟨S1x8388608, .i32⟩
  | .hbm, ⟨4, _⟩ => ⟨S2x1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S6x65536, .f32⟩
  | .local _ .vmem, ⟨1, _⟩ => ⟨S6x65536, .f32⟩
  | .local _ .vmem, ⟨2, _⟩ => ⟨S1x65536, .i32⟩
  | .local _ .vmem, ⟨3, _⟩ => ⟨S1x65536, .i32⟩
  | .local _ .vmem, ⟨4, _⟩ => ⟨S1x1x1, .f32⟩
  | .local _ .vmem, ⟨5, _⟩ => ⟨S1x1x1, .f32⟩
  | .local _ .vmem, ⟨6, _⟩ => ⟨S1x65536, .f32⟩
  | .local _ .vmem, ⟨7, _⟩ => ⟨S6x65536, .i32⟩
  | _, _ => ⟨S8388608x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v24 : BitVec 1 := Scalar.cmpi .eq arg1 c63_i32
  let v25 : BitVec 32 := Scalar.extui v24
  let c0_i32_12 : BitVec 32 := 0#32
  let v26 : BitVec 1 := Scalar.cmpi .ne v25 c0_i32_12
  v26

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S6x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x65536 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  transposes_S8388608x6_S6x8388608_1_0 : S8388608x6.Transposes [1, 0] S6x8388608
  shapeCasts_S8388608_S1x8388608 : S8388608.ShapeCasts S1x8388608
  inb_S1x65536_S1x65536_0_0 : ∀ a, (![0, 0] : Fin 2 → Nat) a + S1x65536.size a ≤ S1x65536.size a
  h_S1x65536 : 0 < S1x65536.numel
  shapeCasts_S1x65536_S1x65536 : S1x65536.ShapeCasts S1x65536
  iota_S6x65536_d0_w32 : S6x65536.Iotas .tc 32 [0]
  inb_S6x65536_S6x65536_0_0 : ∀ a, (![0, 0] : Fin 2 → Nat) a + S6x65536.size a ≤ S6x65536.size a
  h_S6x65536 : 0 < S6x65536.numel
  shapeCasts_S6x65536_S6x65536 : S6x65536.ShapeCasts S6x65536
  reduces_S6x65536_S65536 : S6x65536.Reduces [0] S65536
  shapeCasts_S65536_S1x65536 : S65536.ShapeCasts S1x65536
  broadcasts_S1x65536_S6x65536 : S1x65536.Broadcasts S6x65536
  reduces_S1x65536_S1 : S1x65536.Reduces [1] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6x65536.size a ≤ S6x8388608.size a
  hwx0_0 : ∀ i : grid0.Coords, EltTy.bits .f32 = 32 ∨ (Rect.block (s := S6x8388608) S6x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x65536.size a ≤ S1x8388608.size a
  hwx0_1 : ∀ i : grid0.Coords, EltTy.bits .i32 = 32 ∨ (Rect.block (s := S1x8388608) S1x65536.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_v0) S6x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x65536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8388608x6 : Shape := ⟨2, ![8388608, 6]⟩
abbrev S8388608 : Shape := ⟨1, ![8388608]⟩
abbrev S_ : Shape := ⟨0, ![]⟩
abbrev S8388608x1 : Shape := ⟨2, ![8388608, 1]⟩
abbrev S8388608x1x1 : Shape := ⟨3, ![8388608, 1, 1]⟩
abbrev S1 : Shape := ⟨1, ![1]⟩
abbrev S1x1x1 : Shape := ⟨3, ![1, 1, 1]⟩

abbrev nBuf : Space → Nat
  | .hbm => 46
  | .vmem => 0
  | .smem => 0
  | _ => 0

abbrev bufTy : (tb : Table) → Fin (tcTables nBuf tb) → BufTy
  | .hbm, ⟨0, _⟩ => ⟨S8388608x6, .f32⟩
  | .hbm, ⟨1, _⟩ => ⟨S8388608, .i32⟩
  | .hbm, ⟨2, _⟩ => ⟨S_, .f32⟩
  | .hbm, ⟨3, _⟩ => ⟨S8388608, .f32⟩
  | .hbm, ⟨4, _⟩ => ⟨S_, .f32⟩
  | .hbm, ⟨5, _⟩ => ⟨S8388608, .f32⟩
  | .hbm, ⟨6, _⟩ => ⟨S8388608, .f32⟩
  | .hbm, ⟨7, _⟩ => ⟨S8388608x1, .f32⟩
  | .hbm, ⟨8, _⟩ => ⟨S8388608x6, .f32⟩
  | .hbm, ⟨9, _⟩ => ⟨S8388608x6, .f32⟩
  | .hbm, ⟨10, _⟩ => ⟨S8388608x6, .f32⟩
  | .hbm, ⟨11, _⟩ => ⟨S_, .f32⟩
  | .hbm, ⟨12, _⟩ => ⟨S8388608, .f32⟩
  | .hbm, ⟨13, _⟩ => ⟨S8388608x1, .f32⟩
  | .hbm, ⟨14, _⟩ => ⟨S8388608x1, .f32⟩
  | .hbm, ⟨15, _⟩ => ⟨S8388608x6, .f32⟩
  | .hbm, ⟨16, _⟩ => ⟨S8388608x6, .f32⟩
  | .hbm, ⟨17, _⟩ => ⟨S8388608x1, .i32⟩
  | .hbm, ⟨18, _⟩ => ⟨S_, .i32⟩
  | .hbm, ⟨19, _⟩ => ⟨S8388608x1, .i32⟩
  | .hbm, ⟨20, _⟩ => ⟨S8388608x1, .i1⟩
  | .hbm, ⟨21, _⟩ => ⟨S_, .i32⟩
  | .hbm, ⟨22, _⟩ => ⟨S8388608x1, .i32⟩
  | .hbm, ⟨23, _⟩ => ⟨S8388608x1, .i32⟩
  | .hbm, ⟨24, _⟩ => ⟨S8388608x1, .i32⟩
  | .hbm, ⟨25, _⟩ => ⟨S8388608x1x1, .i32⟩
  | .hbm, ⟨26, _⟩ => ⟨S1, .i32⟩
  | .hbm, ⟨27, _⟩ => ⟨S_, .i32⟩
  | .hbm, ⟨28, _⟩ => ⟨S8388608x1x1, .i32⟩
  | .hbm, ⟨29, _⟩ => ⟨S8388608x1x1, .i1⟩
  | .hbm, ⟨30, _⟩ => ⟨S1x1x1, .i32⟩
  | .hbm, ⟨31, _⟩ => ⟨S8388608x1x1, .i32⟩
  | .hbm, ⟨32, _⟩ => ⟨S8388608x1x1, .i1⟩
  | .hbm, ⟨33, _⟩ => ⟨S8388608x1x1, .i1⟩
  | .hbm, ⟨34, _⟩ => ⟨S_, .i1⟩
  | .hbm, ⟨35, _⟩ => ⟨S8388608x1, .i1⟩
  | .hbm, ⟨36, _⟩ => ⟨S8388608x1, .f32⟩
  | .hbm, ⟨37, _⟩ => ⟨S_, .f32⟩
  | .hbm, ⟨38, _⟩ => ⟨S8388608x1, .f32⟩
  | .hbm, ⟨39, _⟩ => ⟨S8388608x1, .f32⟩
  | .hbm, ⟨40, _⟩ => ⟨S8388608, .f32⟩
  | .hbm, ⟨41, _⟩ => ⟨S8388608, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | _, _ => ⟨S8388608x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_cst : Ref sig .tc := ⟨.hbm, 37, rfl⟩
abbrev main_call1_v14 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_cst : Ref sig .tc := ⟨.hbm, 42, rfl⟩
abbrev main_v5 : Ref sig .tc := ⟨.hbm, 43, rfl⟩
abbrev main_cst_0 : Ref sig .tc := ⟨.hbm, 44, rfl⟩
abbrev main_v6 : Ref sig .tc := ⟨.hbm, 45, rfl⟩

abbrev nD : Nat := 1
abbrev τ : Topo := Topo.v7x

variable {F : FTy → Type} [FloatOps F]

class Facts₀ : Prop where
  reducesTo_S8388608x6_S8388608_d1 : S8388608x6.ReducesTo [1] S8388608
  h_S_ : 0 < S_.numel
  bcast_S_S8388608 : S_.BroadcastsInDim S8388608 (![] : Fin 0 → Fin S8388608.rank)
  bcast_S8388608_S8388608x1_0 : S8388608.BroadcastsInDim S8388608x1 (![0] : Fin 1 → Fin S8388608x1.rank)
  bcast_S8388608x1_S8388608x6_0_1 : S8388608x1.BroadcastsInDim S8388608x6 (![0, 1] : Fin 2 → Fin S8388608x6.rank)
  bcast_S_S8388608x1 : S_.BroadcastsInDim S8388608x1 (![] : Fin 0 → Fin S8388608x1.rank)
  shapeCasts_S8388608x1_S8388608x1x1 : S8388608x1.ShapeCasts S8388608x1x1
  bcast_S_S8388608x1x1 : S_.BroadcastsInDim S8388608x1x1 (![] : Fin 0 → Fin S8388608x1x1.rank)
  bcast_S1_S1x1x1_2 : S1.BroadcastsInDim S1x1x1 (![2] : Fin 1 → Fin S1x1x1.rank)
  bcast_S1x1x1_S8388608x1x1_0_1_2 : S1x1x1.BroadcastsInDim S8388608x1x1 (![0, 1, 2] : Fin 3 → Fin S8388608x1x1.rank)
  reducesTo_S8388608x1x1_S8388608x1_d2 : S8388608x1x1.ReducesTo [2] S8388608x1
  shapeCasts_S8388608x1_S8388608 : S8388608x1.ShapeCasts S8388608
  reducesTo_S8388608_S_d0 : S8388608.ReducesTo [0] S_
  gather_S8388608x6_S8388608x1x1_S8388608x1_n_1_0_0_1_2_11_wf : GatherDims.WF S8388608x6 S8388608x1x1 S8388608x1 [] [1] [0] [1] [0] 2 ![1, 1]

variable [Facts₀]

def gather_S8388608x6_S8388608x1x1_S8388608x1_n_1_0_0_1_2_11 : GatherDims S8388608x6 S8388608x1x1 S8388608x1 where
  offsetDims := []
  collapsedSliceDims := [1]
  operandBatchingDims := [0]
  startIndicesBatchingDims := [0]
  startIndexMap := [1]
  indexVectorDim := 2
  sliceSizes := ![1, 1]
  wf := gather_S8388608x6_S8388608x1x1_S8388608x1_n_1_0_0_1_2_11_wf

class Facts : Prop extends Facts₀ where

variable [Facts]
-- ==== Proof.KernelPieces.lean ====
/-
  What one run of the kernel body leaves behind, read as values.

  The body keeps two scratch buffers across the grid's points: a row of 65536 partial sums, and the table of class
  indices (entry (j, l) is j). At the first step of a part it stores zeros into the first and the class indices into
  the second, then goes on as at every step: it adds, lane by lane, the step's row term (`k0_pay3`: the log of the
  column's exponential sum minus the logit at the label) to the partial sums. At the last step of a part it also
  stores the partial sums' total (`k0_pay4`) into the output block.

  Each lemma says that what a case's stores leave in a buffer, read back, is the stored payload at the values the
  body loaded: the input blocks, and the scratch contents the step found (at the first step: the zeros and indices
  it has just stored itself).
-/
import proofs.«417771_j1460288881356_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

theorem accA (c : Dev nD) (i : grid0.Coords) (a2 : Memref sig .tc .vmem S6x65536 .f32) (h2 : a2.IsWhole)
    (a3 : Memref sig .tc .vmem S1x65536 .i32) (h3 : a3.IsWhole) (a4 : Memref sig .tc .vmem S1x1x1 .f32) (h4 : a4.IsWhole)
    (a5 : Memref sig .tc .vmem S1x65536 .f32) (h5 : a5.IsWhole) (a6 : Memref sig .tc .vmem S6x65536 .i32) (h6 : a6.IsWhole)
    (hc0 : cond0_0 i) (hc1 : ¬cond0_1 i) (x0 : Vec F S6x65536 .f32) (x1 : Vec F S1x65536 .i32) :
    sout0_A_0 c i a2 h2 a3 h3 a4 h4 a5 h5 a6 h6 hc0 hc1 x0 x1 = k0_pay3 x0 x1 (k0_pay2 : Vec F S6x65536 .i32) (k0_pay1 : Vec F S1x65536 .f32) := by
  unfold sout0_A_0
  rw [View.read_writes_eq_canon _ _ _ (scover0_A_0 c i a2 h2 a3 h3 a4 h4 a5 h5 a6 h6 hc0 hc1 x0 x1)]
  unfold kernelRun0_A
  dsimp only
  sl_unfold_words
  rw [View.canon_cons_unit_zero (S := S1x65536) hz2]
  simp only [View.readAt_eq_ld, h2.read_unread, h3.read_unread, View.ld_unit_zero (S := S6x65536) hz2, View.ld_unit_zero (S := S1x65536) hz2,
    View.readCov_unit_zero (S := S1x65536) _ hz2, View.readCov_unit_zero (S := S6x65536) _ hz2]

theorem iotaA (c : Dev nD) (i : grid0.Coords) (a2 : Memref sig .tc .vmem S6x65536 .f32) (h2 : a2.IsWhole)
    (a3 : Memref sig .tc .vmem S1x65536 .i32) (h3 : a3.IsWhole) (a4 : Memref sig .tc .vmem S1x1x1 .f32) (h4 : a4.IsWhole)
    (a5 : Memref sig .tc .vmem S1x65536 .f32) (h5 : a5.IsWhole) (a6 : Memref sig .tc .vmem S6x65536 .i32) (h6 : a6.IsWhole)
    (hc0 : cond0_0 i) (hc1 : ¬cond0_1 i) (x0 : Vec F S6x65536 .f32) (x1 : Vec F S1x65536 .i32) :
    sout0_A_1 c i a2 h2 a3 h3 a4 h4 a5 h5 a6 h6 hc0 hc1 x0 x1 = (k0_pay2 : Vec F S6x65536 .i32) := by
  unfold sout0_A_1
  rw [View.read_writes_eq_canon _ _ _ (scover0_A_1 c i a2 h2 a3 h3 a4 h4 a5 h5 a6 h6 hc0 hc1 x0 x1)]
  unfold kernelRun0_A
  dsimp only
  sl_unfold_words
  rw [View.canon_unit_zero hz2]

theorem accB (c : Dev nD) (i : grid0.Coords) (a2 : Memref sig .tc .vmem S6x65536 .f32) (h2 : a2.IsWhole)
    (a3 : Memref sig .tc .vmem S1x65536 .i32) (h3 : a3.IsWhole) (a4 : Memref sig .tc .vmem S1x1x1 .f32) (h4 : a4.IsWhole)
    (a5 : Memref sig .tc .vmem S1x65536 .f32) (h5 : a5.IsWhole) (a6 : Memref sig .tc .vmem S6x65536 .i32) (h6 : a6.IsWhole)
    (hc0 : ¬cond0_0 i) (hc1 : ¬cond0_1 i) (x0 : Vec F S6x65536 .f32) (x1 : Vec F S1x65536 .i32)
    (xs0 : Vec F S1x65536 .f32) (xs1 : Vec F S6x65536 .i32) :
    sout0_B_0 c i a2 h2 a3 h3 a4 h4 a5 h5 a6 h6 hc0 hc1 x0 x1 xs0 xs1 = k0_pay3 x0 x1 xs1 xs0 := by
  unfold sout0_B_0
  rw [View.read_writes_eq_canon _ _ _ (scover0_B_0 c i a2 h2 a3 h3 a4 h4 a5 h5 a6 h6 hc0 hc1 x0 x1 xs0 xs1)]
  unfold kernelRun0_B
  dsimp only
  sl_unfold_words
  rw [View.canon_unit_zero hz2]
  simp only [View.readAt_eq_ld, h2.read_unread, h3.read_unread, h5.read_unread, h6.read_unread,
    View.ld_unit_zero (S := S6x65536) hz2, View.ld_unit_zero (S := S1x65536) hz2]

theorem accC (c : Dev nD) (i : grid0.Coords) (a2 : Memref sig .tc .vmem S6x65536 .f32) (h2 : a2.IsWhole)
    (a3 : Memref sig .tc .vmem S1x65536 .i32) (h3 : a3.IsWhole) (a4 : Memref sig .tc .vmem S1x1x1 .f32) (h4 : a4.IsWhole)
    (a5 : Memref sig .tc .vmem S1x65536 .f32) (h5 : a5.IsWhole) (a6 : Memref sig .tc .vmem S6x65536 .i32) (h6 : a6.IsWhole)
    (hc0 : ¬cond0_0 i) (hc1 : cond0_1 i) (x0 : Vec F S6x65536 .f32) (x1 : Vec F S1x65536 .i32)
    (xs0 : Vec F S1x65536 .f32) (xs1 : Vec F S6x65536 .i32) :
    sout0_C_0 c i a2 h2 a3 h3 a4 h4 a5 h5 a6 h6 hc0 hc1 x0 x1 xs0 xs1 = k0_pay3 x0 x1 xs1 xs0 := by
  unfold sout0_C_0
  rw [View.read_writes_eq_canon _ _ _ (scover0_C_0 c i a2 h2 a3 h3 a4 h4 a5 h5 a6 h6 hc0 hc1 x0 x1 xs0 xs1)]
  unfold kernelRun0_C
  dsimp only
  sl_unfold_words
  rw [View.canon_unit_zero hz2]
  simp only [View.readAt_eq_ld, h2.read_unread, h3.read_unread, h5.read_unread, h6.read_unread,
    View.ld_unit_zero (S := S6x65536) hz2, View.ld_unit_zero (S := S1x65536) hz2]

theorem outC (c : Dev nD) (i : grid0.Coords) (a2 : Memref sig .tc .vmem S6x65536 .f32) (h2 : a2.IsWhole)
    (a3 : Memref sig .tc .vmem S1x65536 .i32) (h3 : a3.IsWhole) (a4 : Memref sig .tc .vmem S1x1x1 .f32) (h4 : a4.IsWhole)
    (a5 : Memref sig .tc .vmem S1x65536 .f32) (h5 : a5.IsWhole) (a6 : Memref sig .tc .vmem S6x65536 .i32) (h6 : a6.IsWhole)
    (hc0 : ¬cond0_0 i) (hc1 : cond0_1 i) (x0 : Vec F S6x65536 .f32) (x1 : Vec F S1x65536 .i32)
    (xs0 : Vec F S1x65536 .f32) (xs1 : Vec F S6x65536 .i32) :
    out0_C_2 c i a2 h2 a3 h3 a4 h4 a5 h5 a6 h6 hc0 hc1 x0 x1 xs0 xs1 = k0_pay4 (k0_pay3 x0 x1 xs1 xs0) := by
  unfold out0_C_2
  rw [View.read_writes_eq_canon _ _ _ (cover0_C_2 c i a2 h2 a3 h3 a4 h4 a5 h5 a6 h6 hc0 hc1 x0 x1 xs0 xs1)]
  unfold kernelRun0_C
  dsimp only
  sl_unfold_words
  rw [View.canon_unit_zero hz3]
  simp only [View.readAt_eq_ld, h2.read_unread, h3.read_unread, h5.read_unread, h6.read_unread,
    View.ld_unit_zero (S := S6x65536) hz2, View.ld_unit_zero (S := S1x65536) hz2, View.readCov_unit_zero (S := S1x65536) _ hz2]

end Cert.KernelIdeal.Pieces

end
-- ==== Proof.KernelSteps.lean ====
/-
  What the carried buffers hold after each grid point, one point at a time.

  After the first step of a part the class-index table holds the class indices and the row of partial sums holds the
  step's stored row computed from the zero row. After any other step the table is what the step before left, and the
  row of partial sums is the step's stored row computed from the table and the row the step before left; after the
  last step of a part the output block also holds the total of that row.
-/
import proofs.«417771_j1460288881356_3_alg».proof.Proof.Gen.KernelIdeal.Frame
import proofs.«417771_j1460288881356_3_alg».proof.Proof.KernelPieces

set_option maxRecDepth 16384

noncomputable section

open Idealize.ShloMosaic Idealize.ShloMosaic.TcCoe Idealize.SL.Sem
open Idealize.ShloMosaic.Pipeline (Dat)

namespace Cert.KernelIdeal.Steps

open Cert.KernelIdeal Cert.KernelIdeal.Gen

variable {F : FTy → Type} [FloatOps F]
variable (m : (ℓ : Loc nD τ sig) → Buf (Elt F) ℓ)

/-- The logits' block at point `t`. -/
abbrev xblk (c : Dev nD) (t : Fin cfg0.N) : Vec F S6x65536 .f32 := iblk m c 0 t
/-- The labels' block at point `t`. -/
abbrev tblk (c : Dev nD) (t : Fin cfg0.N) : Vec F S1x65536 .i32 := iblk m c 1 t
/-- The row of partial sums after point `n`. -/
abbrev accAt (c : Dev nD) (n : ℕ) (h : n < cfg0.N) : Vec F S1x65536 .f32 := (outsAt0 m c n h).2.1
/-- The class-index table after point `n`. -/
abbrev tabAt (c : Dev nD) (n : ℕ) (h : n < cfg0.N) : Vec F S6x65536 .i32 := (outsAt0 m c n h).2.2
/-- The output block after point `n`. -/
abbrev outAt (c : Dev nD) (n : ℕ) (h : n < cfg0.N) : Vec F S1x1x1 .f32 := (outsAt0 m c n h).1

theorem pred_lt (t : Fin cfg0.N) : t.val - 1 < cfg0.N := Nat.lt_of_le_of_lt (Nat.sub_le _ _) t.isLt

/-- After the first step of a part. -/
theorem first_tab (c : Dev nD) (t : Fin cfg0.N) (h0 : t.val % 64 = 0) (h1 : ¬t.val % 64 = 63) :
    tabAt m c t.val t.isLt = (k0_pay2 : Vec F S6x65536 .i32) := by
  unfold tabAt
  rw [outsAt0_A m c t h0 h1]; dsimp only
  exact Pieces.iotaA (F := F) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t)

theorem first_acc (c : Dev nD) (t : Fin cfg0.N) (h0 : t.val % 64 = 0) (h1 : ¬t.val % 64 = 63) :
    accAt m c t.val t.isLt = k0_pay3 (xblk m c t) (tblk m c t) (k0_pay2 : Vec F S6x65536 .i32) (k0_pay1 (F := F)) := by
  unfold accAt
  rw [outsAt0_A m c t h0 h1]; dsimp only
  exact Pieces.accA (F := F) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t)

/-- After a middle step of a part. -/
theorem mid_tab (c : Dev nD) (t : Fin cfg0.N) (h0 : ¬t.val % 64 = 0) (h1 : ¬t.val % 64 = 63) :
    tabAt m c t.val t.isLt = tabAt m c (t.val - 1) (pred_lt t) := by
  unfold tabAt
  rw [outsAt0_B m c t h0 h1]; dsimp only
  rfl

theorem mid_acc (c : Dev nD) (t : Fin cfg0.N) (h0 : ¬t.val % 64 = 0) (h1 : ¬t.val % 64 = 63) :
    accAt m c t.val t.isLt = k0_pay3 (xblk m c t) (tblk m c t) (tabAt m c (t.val - 1) (pred_lt t)) (accAt m c (t.val - 1) (pred_lt t)) := by
  unfold accAt
  rw [outsAt0_B m c t h0 h1]; dsimp only
  exact Pieces.accB (F := F) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t)
    (outsAt0 m c (t.val - 1) (pred_lt t)).2.1 (outsAt0 m c (t.val - 1) (pred_lt t)).2.2

/-- After the last step of a part. -/
theorem last_tab (c : Dev nD) (t : Fin cfg0.N) (h0 : ¬t.val % 64 = 0) (h1 : t.val % 64 = 63) :
    tabAt m c t.val t.isLt = tabAt m c (t.val - 1) (pred_lt t) := by
  unfold tabAt
  rw [outsAt0_C m c t h0 h1]; dsimp only
  rfl

theorem last_acc (c : Dev nD) (t : Fin cfg0.N) (h0 : ¬t.val % 64 = 0) (h1 : t.val % 64 = 63) :
    accAt m c t.val t.isLt = k0_pay3 (xblk m c t) (tblk m c t) (tabAt m c (t.val - 1) (pred_lt t)) (accAt m c (t.val - 1) (pred_lt t)) := by
  unfold accAt
  rw [outsAt0_C m c t h0 h1]; dsimp only
  exact Pieces.accC (F := F) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t)
    (outsAt0 m c (t.val - 1) (pred_lt t)).2.1 (outsAt0 m c (t.val - 1) (pred_lt t)).2.2

theorem last_out (c : Dev nD) (t : Fin cfg0.N) (h0 : ¬t.val % 64 = 0) (h1 : t.val % 64 = 63) :
    outAt m c t.val t.isLt = k0_pay4 (k0_pay3 (xblk m c t) (tblk m c t) (tabAt m c (t.val - 1) (pred_lt t)) (accAt m c (t.val - 1) (pred_lt t))) := by
  unfold outAt
  rw [outsAt0_C m c t h0 h1]; dsimp only
  exact Pieces.outC (F := F) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t)
    (outsAt0 m c (t.val - 1) (pred_lt t)).2.1 (outsAt0 m c (t.val - 1) (pred_lt t)).2.2

end Cert.KernelIdeal.Steps

end
-- ==== Proof.Spec.lean ====
/-
  The mean negative log-likelihood of a softmax over six classes, for 8388608 rows, as ONE function of the two
  argument arrays: the logits `x` (a row per example, a column per class) and the labels `t`.

  Row `i` contributes `log (Σ_j exp x_ij) − Σ_j [j = t_i] · x_ij`: the log of the row's exponential sum, minus the
  logit at the label, the latter written as the sum over the six classes of the logit where the class index equals
  the label and zero elsewhere. The result is the rows' sum, taken from zero, divided by the number of rows 2^23
  (the float literal whose pattern is `0x4B000000`).
-/
import Idealize.ShloMosaic.PureOps.Ideal
import Idealize.ShloMosaic.Lib.ValueIdx

noncomputable section

namespace Cert.Xent

open Idealize.ShloMosaic Idealize.ShloMosaic.ValueIdx

/-- The logits' shape: a row per example, a column per class. -/
abbrev SRows : Shape := ⟨2, ![8388608, 6]⟩
/-- The labels' shape. -/
abbrev SLab : Shape := ⟨1, ![8388608]⟩
/-- The scalar shape of the result. -/
abbrev SOut : Shape := ⟨0, ![]⟩

/-- Row `i`'s negative log-likelihood, with no shift: `log Σ_j exp x_ij − Σ_j [j = t_i] x_ij`. -/
def nll (x : SRows.Idx → EReal) (t : SLab.Idx → BitVec 32) (i : Fin 8388608) : EReal :=
  Ideal.log (∑ j : Fin 6, Ideal.exp (x (ix2 i j)))
    - ∑ j : Fin 6, (if BitVec.ofNat 32 j.val = t (ix1 i) then x (ix2 i j) else 0)

/-- The same, with the row named by a natural number (zero past the last row), for sums over ranges. -/
def nllNat (x : SRows.Idx → EReal) (t : SLab.Idx → BitVec 32) (r : ℕ) : EReal :=
  if h : r < 8388608 then nll x t ⟨r, h⟩ else 0

theorem nllNat_val (x : SRows.Idx → EReal) (t : SLab.Idx → BitVec 32) (i : Fin 8388608) :
    nllNat x t i.val = nll x t i := by
  unfold nllNat; rw [dif_pos i.isLt]

/-- The mean: the rows' sum, from zero, over the number of rows. -/
def loss (x : SRows.Idx → EReal) (t : SLab.Idx → BitVec 32) : SOut.Idx → EReal :=
  fun _ => Ideal.div (0 + ∑ i : Fin 8388608, nll x t i) (Ideal.ofBits .f32 0x4B000000#32)

end Cert.Xent

end
-- ==== Proof.KernelTerm.lean ====
/-
  The body's arithmetic at one lane, over the extended reals.

  At lane `l` of a step's block the body computes the row term `log (Σ_j exp x_jl) − Σ_j [j = t_l] · x_jl` from the
  block's six logits in column `l` and the label `t_l` (the class-index table holds `j` at entry (j, l), so the
  comparison of the table with the broadcast label is the test "class j is the label"), and adds it to the partial
  sum it found at lane `l`. The last step's extra store is the sum of the 65536 partial sums.
-/
import proofs.«417771_j1460288881356_3_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Term

open Cert.KernelIdeal Cert.KernelIdeal.Gen

/-- Lane `l`'s row term from a block of logits (six rows, one column per example) and a block of labels. -/
def term (x0 : Vec Ideal S6x65536 .f32) (x1 : Vec Ideal S1x65536 .i32) (l : Fin 65536) : EReal :=
  Ideal.log (∑ j : Fin 6, Ideal.exp (x0 (ix2 j l)))
    - ∑ j : Fin 6, (if BitVec.ofNat 32 j.val = x1 (ix2 0 l) then x0 (ix2 j l) else 0)

/-- The class-index table holds the class index `j` at entry (j, l). -/
theorem pay2_apply (j : Fin 6) (l : Fin 65536) :
    (k0_pay2 : Vec Ideal S6x65536 .i32) (ix2 j l) = BitVec.ofNat 32 j.val := by
  unfold k0_pay2
  simp only [shapeCast_self]
  exact iota_single_apply .tc S6x65536 32 0 iota_S6x65536_d0_w32 (ix2 j l)

/-- The reset row of partial sums is zero at every lane. -/
theorem pay1_apply (l : Fin 65536) : (k0_pay1 (F := Ideal)) (ix2 0 l) = 0 := by
  unfold k0_pay1
  simp only [shapeCast_self]
  exact Ideal.ofBits_zero_f32

/-- A row of 65536 entries viewed as a one-row block reads lane `l` at (0, l). -/
theorem row_cast_apply {α : Type} (v : S65536.Idx → α) (l : Fin 65536) :
    shapeCast S1x65536 v shapeCasts_S65536_S1x65536 (ix2 0 l) = v (ix1 l) :=
  shapeCast_apply v shapeCasts_S65536_S1x65536 (ix2 0 l) (ix1 l) (by
    rw [Shape.rowMajor_val_one, Shape.rowMajor_val_two]; show l.val = 0 * 65536 + l.val; omega)

/-- Summing a block of six rows over its rows, at lane `l`: the six entries of column `l`. -/
theorem col_sum_apply (v : FVec Ideal S6x65536 .f32) (hφ) (hacc) (l : Fin 65536) :
    multiReduction .add [0] S65536 v 0x00000000#32 reduces_S6x65536_S65536 hφ hacc (ix1 l) = ∑ j : Fin 6, v (ix2 j l) := by
  rw [Ideal.multiReduction_add_single]
  refine Finset.sum_congr rfl fun k _ => congrArg v (funext fun a => Fin.ext ?_)
  match a with
  | ⟨0, _⟩ => rfl
  | ⟨1, _⟩ => rfl

/-- The label row broadcast over the six classes reads the label of lane `l` at every class. -/
theorem label_bcast_apply (x1 : Vec Ideal S1x65536 .i32) (j : Fin 6) (l : Fin 65536) :
    broadcastTo S6x65536 x1 broadcasts_S1x65536_S6x65536 (ix2 j l) = x1 (ix2 0 l) :=
  broadcastTo_apply x1 broadcasts_S1x65536_S6x65536 (ix2 j l) (ix2 0 l) (fun a => by
    match a with
    | ⟨0, _⟩ => show (0 : ℕ) = if (1 : ℕ) = 1 then 0 else _; rw [if_pos rfl]
    | ⟨1, _⟩ => show l.val = if (65536 : ℕ) = 1 then 0 else l.val; rw [if_neg (by decide)])

/-- Adding to a row of partial sums the difference of a logged row and another row, read at lane `l`. -/
theorem add_log_sub_apply (A B : FVec Ideal S65536 .f32) (acc : FVec Ideal S1x65536 .f32) (l : Fin 65536) :
    addf acc (subf (log (shapeCast S1x65536 A shapeCasts_S65536_S1x65536)) (shapeCast S1x65536 B shapeCasts_S65536_S1x65536)) (ix2 0 l)
      = acc (ix2 0 l) + (Ideal.log (A (ix1 l)) - B (ix1 l)) := by
  show acc (ix2 0 l) + (Ideal.log (shapeCast S1x65536 A shapeCasts_S65536_S1x65536 (ix2 0 l))
      - shapeCast S1x65536 B shapeCasts_S65536_S1x65536 (ix2 0 l)) = _
  rw [row_cast_apply, row_cast_apply]

/-- The word comparison "equal" answers one exactly when the two words are equal. -/
theorem cmpi_eq_one_iff (a b : BitVec 32) : IntOp.cmpi .eq a b = 1#1 ↔ a = b := by
  show BitVec.ofBool (a == b) = 1#1 ↔ a = b
  by_cases h : a = b
  · subst h; simp
  · have hb : (a == b) = false := beq_eq_false_iff_ne.mpr h
    simp [hb, h]

/-- Keeping the logit where the class index equals the label and zero elsewhere, at entry (j, l). -/
theorem select_label_apply (x0 : FVec Ideal S6x65536 .f32) (x1 : Vec Ideal S1x65536 .i32) (j : Fin 6) (l : Fin 65536) :
    select (cmpi .eq (k0_pay2 : IVec S6x65536 32) (broadcastTo S6x65536 x1 broadcasts_S1x65536_S6x65536)) x0
        (broadcast S6x65536 (FloatOps.ofBits (F := Ideal) .f32 0x00000000#32)) (ix2 j l)
      = if BitVec.ofNat 32 j.val = x1 (ix2 0 l) then x0 (ix2 j l) else 0 := by
  show Scalar.select (IntOp.cmpi .eq ((k0_pay2 : IVec S6x65536 32) (ix2 j l))
      (broadcastTo S6x65536 x1 broadcasts_S1x65536_S6x65536 (ix2 j l))) (x0 (ix2 j l)) (Ideal.ofBits .f32 0x00000000#32) = _
  rw [pay2_apply, label_bcast_apply, Ideal.ofBits_zero_f32]
  unfold Scalar.select
  by_cases h : BitVec.ofNat 32 j.val = x1 (ix2 0 l)
  · rw [if_pos h]; exact if_pos ((cmpi_eq_one_iff _ _).mpr h)
  · rw [if_neg h]; exact if_neg (fun h' => h ((cmpi_eq_one_iff _ _).mp h'))

/-- The step's stored row at lane `l`: the partial sum found there plus the lane's row term. -/
theorem pay3_apply (x0 : Vec Ideal S6x65536 .f32) (x1 : Vec Ideal S1x65536 .i32) (acc : Vec Ideal S1x65536 .f32) (l : Fin 65536) :
    k0_pay3 (F := Ideal) x0 x1 (k0_pay2 : Vec Ideal S6x65536 .i32) acc (ix2 0 l) = acc (ix2 0 l) + term x0 x1 l := by
  unfold k0_pay3
  simp only [shapeCast_self]
  refine (add_log_sub_apply _ _ acc l).trans ?_
  unfold term
  refine congrArg (acc (ix2 0 l) + ·) (congrArg₂ (· - ·) (congrArg Ideal.log ((col_sum_apply _ _ _ l).trans rfl))
    ((col_sum_apply _ _ _ l).trans (Finset.sum_congr rfl fun j _ => ?_)))
  exact select_label_apply x0 x1 j l

/-- Summing a one-row block over its lanes: the 65536 entries of the row. -/
theorem lane_sum_apply (v : FVec Ideal S1x65536 .f32) (hφ) (hacc) :
    multiReduction .add [1] S1 v 0x00000000#32 reduces_S1x65536_S1 hφ hacc (ix1 0) = ∑ l : Fin 65536, v (ix2 0 l) := by
  rw [Ideal.multiReduction_add_single]
  refine Finset.sum_congr rfl fun k _ => congrArg v (funext fun a => Fin.ext ?_)
  match a with
  | ⟨0, _⟩ => rfl
  | ⟨1, _⟩ => rfl

/-- The last step's extra store: the sum of the 65536 partial sums. -/
theorem pay4_apply (acc : Vec Ideal S1x65536 .f32) :
    k0_pay4 (F := Ideal) acc (ix3 0 0 0) = ∑ l : Fin 65536, acc (ix2 0 l) := by
  unfold k0_pay4
  have e1 : ∀ (v : S1x1.Idx → EReal), shapeCast S1x1x1 v shapeCasts_S1x1_S1x1x1 (ix3 0 0 0) = v (ix2 0 0) := fun v =>
    shapeCast_apply v shapeCasts_S1x1_S1x1x1 (ix3 0 0 0) (ix2 0 0) (by rw [Shape.rowMajor_val_two, Shape.rowMajor_val_three]; rfl)
  have e2 : ∀ (v : S1.Idx → EReal), shapeCast S1x1 v shapeCasts_S1_S1x1 (ix2 0 0) = v (ix1 0) := fun v =>
    shapeCast_apply v shapeCasts_S1_S1x1 (ix2 0 0) (ix1 0) (by rw [Shape.rowMajor_val_one, Shape.rowMajor_val_two]; rfl)
  rw [e1, e2]
  exact lane_sum_apply acc _ _

end Cert.KernelIdeal.Term

end
-- ==== Proof.KernelBlocks.lean ====
/-
  The blocks the body reads, as entries of the two argument arrays.

  Before the region the logits are transposed (a row per class, a column per example) and the labels are viewed as
  one row. At grid point `t` (part `t / 64`, step `t % 64`) both windows take block `t` along the example axis: entry
  (j, l) of the logits' block is logit `j` of example `t · 65536 + l`, and entry (0, l) of the labels' block is that
  example's label. So lane `l`'s row term at point `t` is example `t · 65536 + l`'s negative log-likelihood.
-/
import proofs.«417771_j1460288881356_3_alg».proof.Proof.Gen.KernelIdeal.Frame
import proofs.«417771_j1460288881356_3_alg».proof.Proof.Spec
import proofs.«417771_j1460288881356_3_alg».proof.Proof.KernelTerm
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable (m : (ℓ : Loc nD τ sig) → Buf (Elt Ideal) ℓ)

/-- The logits as launched. -/
abbrev xs (c : Dev nD) : Cert.Xent.SRows.Idx → EReal := m ((c : Thread nD τ).loc main_arg0)
/-- The labels as launched. -/
abbrev ts (c : Dev nD) : Cert.Xent.SLab.Idx → BitVec 32 := m ((c : Thread nD τ).loc main_arg1)

/-- The region finds the transposed logits in its first window's array. -/
theorem V_main_v0 (c : Dev nD) :
    (V m c main_v0 : S6x8388608.Idx → EReal) = transpose S6x8388608 [1, 0] (xs m c) transposes_S8388608x6_S6x8388608_1_0 := by
  show StableHlo.after hostOps0 (fun b => m (c, b)) (Proc.devRef .tc main_v0) = _
  after_results

/-- The region finds the labels, viewed as one row, in its second window's array. -/
theorem V_main_v1 (c : Dev nD) :
    (V m c main_v1 : S1x8388608.Idx → BitVec 32) = shapeCast S1x8388608 (ts m c) shapeCasts_S8388608_S1x8388608 := by
  show StableHlo.after hostOps0 (fun b => m (c, b)) (Proc.devRef .tc main_v1) = _
  after_results
  rfl

/-- Both input windows take block `t` along the example axis at point `t`. -/
theorem idx0 : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)
theorem idx1 : ∀ t : Fin cfg0.N, win0_1.index t (0 : Fin 2) = 0 ∧ win0_1.index t (1 : Fin 2) = t.val :=
  (by decide +kernel : ∀ t : Fin grid0.N, win0_1.index t (0 : Fin 2) = 0 ∧ win0_1.index t (1 : Fin 2) = t.val)

theorem row_lt (t : Fin cfg0.N) (l : Fin 65536) : t.val * 65536 + l.val < 8388608 := by
  have hN : t.val < 128 := lt_of_lt_of_eq t.isLt (show cfg0.N = 128 from N_0)
  have := l.isLt
  omega

/-- Entry (j, l) of the logits' block at point `t` is logit `j` of example `t · 65536 + l`. -/
theorem iblk0_apply (c : Dev nD) (t : Fin cfg0.N) (j : Fin 6) (l : Fin 65536) :
    (iblk m c 0 t : Vec Ideal S6x65536 .f32) (ix2 j l) = xs m c (ix2 ⟨t.val * 65536 + l.val, row_lt t l⟩ j) := by
  unfold iblk
  rw [View.read_apply]
  show V m c main_v0 _ = _
  refine (congrFun (V_main_v0 m c) _).trans ?_
  refine transpose_apply [1, 0] (xs m c) transposes_S8388608x6_S6x8388608_1_0 _ (ix2 ⟨_, row_lt t l⟩ j) (fun b => ?_)
  match b with
  | ⟨0, _⟩ => show j.val = win0_0.index t 0 * 6 + 1 * j.val; rw [(idx0 t).1]; omega
  | ⟨1, _⟩ => show t.val * 65536 + l.val = win0_0.index t 1 * 65536 + 1 * l.val; rw [(idx0 t).2]; omega

/-- Entry (0, l) of the labels' block at point `t` is the label of example `t · 65536 + l`. -/
theorem iblk1_apply (c : Dev nD) (t : Fin cfg0.N) (l : Fin 65536) :
    (iblk m c 1 t : Vec Ideal S1x65536 .i32) (ix2 0 l) = ts m c (ix1 ⟨t.val * 65536 + l.val, row_lt t l⟩) := by
  unfold iblk
  rw [View.read_apply]
  show V m c main_v1 _ = _
  refine (congrFun (V_main_v1 m c) _).trans ?_
  refine shapeCast_apply (ts m c) shapeCasts_S8388608_S1x8388608 _ (ix1 ⟨_, row_lt t l⟩) ?_
  rw [Shape.rowMajor_val_one, Shape.rowMajor_val_two]
  show t.val * 65536 + l.val = (win0_1.index t 0 * 1 + 1 * 0) * 8388608 + (win0_1.index t 1 * 65536 + 1 * l.val)
  rw [(idx1 t).1, (idx1 t).2]; omega

/-- Lane `l`'s row term at point `t` is example `t · 65536 + l`'s negative log-likelihood. -/
theorem term_iblk (c : Dev nD) (t : Fin cfg0.N) (l : Fin 65536) :
    Term.term (iblk m c 0 t) (iblk m c 1 t) l = Cert.Xent.nllNat (xs m c) (ts m c) (t.val * 65536 + l.val) := by
  unfold Cert.Xent.nllNat
  rw [dif_pos (row_lt t l)]
  unfold Term.term Cert.Xent.nll
  simp only [iblk0_apply, iblk1_apply]

end Cert.KernelIdeal.Blocks

end
-- ==== Proof.LibLogSumExp.lean ====
/-
  General facts about sums laid out in blocks and about a log-softmax read over the reals.

  * A sum over `P · S · L` consecutive naturals, laid out as `P` parts of `S` steps of `L` lanes and summed lane by
    lane (for each part and each lane, the steps' sum), is the plain sum: addition in a commutative monoid does not
    see the grouping.
  * The negated log-softmax of a real row at an entry does not see the shift: for a real row `s`, a real `M` and an
    entry `k`, `−((s k − M) − log (0 + Σ_j exp (s j − M))) = log (Σ_j exp (s j)) − s k`.
  * A sum that keeps one entry of a row and replaces the others by zero is that entry.
-/
import Idealize.ShloMosaic.PureOps.Ideal
import Mathlib.Analysis.SpecialFunctions.Exp
import Mathlib.Analysis.SpecialFunctions.Log.Basic
import Mathlib.Algebra.BigOperators.Fin
import Mathlib.Algebra.BigOperators.Intervals

noncomputable section

namespace Cert.LogSumExp

open Idealize.ShloMosaic

/-- A sum over `A · B` consecutive naturals is the sum, over `a < A`, of the sums over `b < B` at `a · B + b`:
    the first `A · B` naturals are `A` consecutive runs of length `B`. -/
private theorem sum_range_mul {β : Type*} [AddCommMonoid β] (A B : ℕ) (g : ℕ → β) :
    ∑ i ∈ Finset.range (A * B), g i = ∑ a ∈ Finset.range A, ∑ b ∈ Finset.range B, g (a * B + b) := by
  induction A with
  | zero => simp
  | succ A ih => rw [Nat.succ_mul, Finset.sum_range_add, ih, Finset.sum_range_succ]

/-- A finite sum of coerced reals is the coerced real sum. -/
private theorem coe_sum {ι : Type*} (t : Finset ι) (g : ι → ℝ) :
    ∑ i ∈ t, (g i : EReal) = ((∑ i ∈ t, g i : ℝ) : EReal) := by
  classical
  induction t using Finset.induction_on with
  | empty => simp
  | insert a t ha ih => rw [Finset.sum_insert ha, Finset.sum_insert ha, ih, EReal.coe_add]

/-- A sum over `N = P · S · L` consecutive naturals, taken part by part, lane by lane and step by step, is the plain
    sum over `Fin N`: row `(p · S + s) · L + l` runs over every natural below `N` exactly once. -/
theorem sum_blocks {β : Type*} [AddCommMonoid β] (N P S L : ℕ) (hN : N = P * S * L) (f : ℕ → β) :
    ∑ p : Fin P, ∑ l : Fin L, ∑ s ∈ Finset.range S, f ((p.val * S + s) * L + l.val) = ∑ i : Fin N, f i.val := by
  subst hN
  -- the plain sum, cut into `P · S` runs of `L`, and those runs into `P` groups of `S`
  rw [Fin.sum_univ_eq_sum_range (fun i => f i) (P * S * L), sum_range_mul (P * S) L f,
    sum_range_mul P S (fun q => ∑ l ∈ Finset.range L, f (q * L + l)),
    Fin.sum_univ_eq_sum_range (fun p => ∑ l : Fin L, ∑ s ∈ Finset.range S, f ((p * S + s) * L + l.val)) P]
  refine Finset.sum_congr rfl (fun p _ => ?_)
  -- inside one part, lanes and steps are summed in either order
  rw [Fin.sum_univ_eq_sum_range (fun l => ∑ s ∈ Finset.range S, f ((p * S + s) * L + l)) L, Finset.sum_comm]

/-- The negated log-softmax of a real row at entry `k`, computed with a real shift `M` subtracted first, is the
    log of the row's exponential sum minus the entry: `exp (s j − M) = exp (s j) / exp M`, the sums are positive
    reals, and `log (Σ exp (s j) / exp M) = log (Σ exp (s j)) − M`. -/
theorem neg_logSoftmax_shift {n : ℕ} [NeZero n] (s : Fin n → ℝ) (M : ℝ) (k : Fin n) :
    -(((s k : EReal) - (M : EReal)) - Ideal.log (0 + ∑ j : Fin n, Ideal.exp ((s j : EReal) - (M : EReal))))
      = Ideal.log (∑ j : Fin n, Ideal.exp (s j : EReal)) - (s k : EReal) := by
  -- both exponential sums are positive reals
  have hpos1 : 0 < ∑ j : Fin n, Real.exp (s j - M) :=
    Finset.sum_pos (fun j _ => Real.exp_pos _) Finset.univ_nonempty
  have hpos2 : 0 < ∑ j : Fin n, Real.exp (s j) :=
    Finset.sum_pos (fun j _ => Real.exp_pos _) Finset.univ_nonempty
  have h1 : ∑ j : Fin n, Ideal.exp ((s j : EReal) - (M : EReal))
      = ((∑ j : Fin n, Real.exp (s j - M) : ℝ) : EReal) := by
    rw [← coe_sum]
    refine Finset.sum_congr rfl (fun j _ => ?_)
    rw [← EReal.coe_sub, Ideal.exp_coe]
  have h2 : ∑ j : Fin n, Ideal.exp (s j : EReal) = ((∑ j : Fin n, Real.exp (s j) : ℝ) : EReal) := by
    rw [← coe_sum]
    refine Finset.sum_congr rfl (fun j _ => ?_)
    rw [Ideal.exp_coe]
  -- the shifted sum is the plain sum divided by `exp M`
  have hdiv : ∑ j : Fin n, Real.exp (s j - M) = (∑ j : Fin n, Real.exp (s j)) / Real.exp M := by
    rw [Finset.sum_div]
    exact Finset.sum_congr rfl (fun j _ => Real.exp_sub _ _)
  rw [zero_add, h1, h2, Ideal.log_coe, Ideal.log_coe, if_neg (not_le.mpr hpos1), if_neg (not_le.mpr hpos2),
    ← EReal.coe_sub, ← EReal.coe_sub, ← EReal.coe_neg, ← EReal.coe_sub, hdiv,
    Real.log_div hpos2.ne' (Real.exp_pos M).ne', Real.log_exp]
  congr 1
  ring

/-- Keeping entry `k` of a row and zero elsewhere, then summing, gives entry `k`. -/
theorem sum_ite_entry {n : ℕ} (v : Fin n → EReal) (k : Fin n) :
    ∑ j : Fin n, (if j = k then v j else 0) = v k := by
  rw [Finset.sum_ite_eq' Finset.univ k v, if_pos (Finset.mem_univ k)]

end Cert.LogSumExp

end
-- ==== Proof.KernelValue.lean ====
/-
  The kernel's result is the mean negative log-likelihood.

  By induction on the grid point, the class-index table always holds the class indices, and after step `k` of a part
  that starts at point `b` lane `l` of the row of partial sums holds the sum of the negative log-likelihoods of
  examples `(b + s) · 65536 + l` for `s = 0 … k`: the first step stores zero plus its term, every later step adds its
  term to what the step before left. The last step of part `p` stores the sum over the 65536 lanes into entry `p` of
  the two-entry output array; these two write-backs cover the array. The operations after the region add the two
  entries from zero and divide by the number of rows; part by part, lane by lane and step by step every example is
  met exactly once, so the total is the plain sum over all examples.
-/
import proofs.«417771_j1460288881356_3_alg».proof.Proof.KernelSteps
import proofs.«417771_j1460288881356_3_alg».proof.Proof.KernelBlocks
import proofs.«417771_j1460288881356_3_alg».proof.Proof.KernelTerm
import proofs.«417771_j1460288881356_3_alg».proof.Proof.Spec
import proofs.«417771_j1460288881356_3_alg».proof.Proof.LibLogSumExp
import Idealize.ShloMosaic.Lib.Pipeline.Value
import Idealize.ShloMosaic.Lib.StableHlo.Run
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.XValue

open Cert.KernelIdeal Cert.KernelIdeal.Gen Cert.KernelIdeal.Steps Cert.KernelIdeal.Blocks Cert.KernelIdeal.Term Cert.Xent

variable (m : (ℓ : Loc nD τ sig) → Buf (Elt Ideal) ℓ) (ρ : Dev nD → PrngReg)

/-- Example `r`'s negative log-likelihood at the launched arrays. -/
abbrev f (c : Dev nD) (r : ℕ) : EReal := nllNat (xs m c) (ts m c) r

/-- Lane `l`'s partial sum over steps `b … b + k`. -/
def psum (c : Dev nD) (b k : ℕ) (l : Fin 65536) : EReal :=
  ∑ s ∈ Finset.range (k + 1), f m c ((b + s) * 65536 + l.val)

/-- After every point the class-index table holds the class indices and the row of partial sums holds, lane by
    lane, the sum over the part's steps so far. -/
theorem inv (c : Dev nD) : ∀ (n : ℕ) (h : n < cfg0.N),
    tabAt m c n h = (k0_pay2 : Vec Ideal S6x65536 .i32)
      ∧ ∀ l : Fin 65536, accAt m c n h (ix2 0 l) = psum m c (n - n % 64) (n % 64) l
  | 0, h => by
    have h0 : (⟨0, h⟩ : Fin cfg0.N).val % 64 = 0 := rfl
    have h1 : ¬(⟨0, h⟩ : Fin cfg0.N).val % 64 = 63 := (by decide : ¬(0 : ℕ) % 64 = 63)
    refine ⟨first_tab m c ⟨0, h⟩ h0 h1, fun l => ?_⟩
    rw [show accAt m c 0 h = _ from first_acc m c ⟨0, h⟩ h0 h1, pay3_apply, pay1_apply, zero_add, term_iblk]
    unfold psum
    rw [show (0 : ℕ) % 64 + 1 = 1 from rfl, Finset.sum_range_one]
  | n + 1, h => by
    obtain ⟨ihT, ihA⟩ := inv c n (Nat.lt_of_succ_lt h)
    by_cases h0 : (n + 1) % 64 = 0
    · have h1 : ¬(n + 1) % 64 = 63 := by omega
      refine ⟨first_tab m c ⟨n + 1, h⟩ h0 h1, fun l => ?_⟩
      rw [show accAt m c (n + 1) h = _ from first_acc m c ⟨n + 1, h⟩ h0 h1, pay3_apply, pay1_apply, zero_add, term_iblk]
      unfold psum
      rw [h0, Finset.sum_range_one]
      show f m c ((n + 1) * 65536 + l.val) = f m c ((n + 1 - 0 + 0) * 65536 + l.val)
      rfl
    · have tabEq : tabAt m c (n + 1) h = (k0_pay2 : Vec Ideal S6x65536 .i32) := by
        by_cases h1 : (n + 1) % 64 = 63
        · exact (last_tab m c ⟨n + 1, h⟩ h0 h1).trans ihT
        · exact (mid_tab m c ⟨n + 1, h⟩ h0 h1).trans ihT
      have accEq : accAt m c (n + 1) h
          = k0_pay3 (xblk m c ⟨n + 1, h⟩) (tblk m c ⟨n + 1, h⟩) (k0_pay2 : Vec Ideal S6x65536 .i32) (accAt m c n (Nat.lt_of_succ_lt h)) := by
        by_cases h1 : (n + 1) % 64 = 63
        · refine (last_acc m c ⟨n + 1, h⟩ h0 h1).trans ?_
          show k0_pay3 _ _ (tabAt m c n _) (accAt m c n _) = _
          rw [ihT]
        · refine (mid_acc m c ⟨n + 1, h⟩ h0 h1).trans ?_
          show k0_pay3 _ _ (tabAt m c n _) (accAt m c n _) = _
          rw [ihT]
      refine ⟨tabEq, fun l => ?_⟩
      rw [accEq, pay3_apply, ihA l, term_iblk]
      have e1 : (n + 1) % 64 = n % 64 + 1 := by omega
      have e2 : n + 1 - (n + 1) % 64 = n - n % 64 := by omega
      have e3 : n - n % 64 + (n % 64 + 1) = n + 1 := by have := Nat.mod_le n 64; omega
      unfold psum
      rw [e2, e1, Finset.sum_range_succ _ (n % 64 + 1), e3]

end Cert.KernelIdeal.XValue

end
-- ==== Proof.KernelResult.lean ====
/-
  From the last step's store to the program's result.

  The last step of part `p` (point `64 p + 63`) writes the sum over the lanes of the part's partial sums into entry
  `p` of the two-entry output array, and these are the only write-backs: the array ends holding, at entry `p`, the sum
  over lanes and steps of part `p`'s examples. The host then adds the two entries from zero and divides by the number
  of rows: the mean negative log-likelihood.
-/
import proofs.«417771_j1460288881356_3_alg».proof.Proof.KernelValue

set_option maxRecDepth 16384

noncomputable section

open Idealize.ShloMosaic Idealize.ShloMosaic.TcCoe Idealize.SL.Sem Idealize.ShloMosaic.ValueIdx
open Idealize.ShloMosaic.Pipeline (Dat)

namespace Cert.KernelIdeal.XValue

open Cert.KernelIdeal Cert.KernelIdeal.Gen Cert.KernelIdeal.Steps Cert.KernelIdeal.Blocks Cert.KernelIdeal.Term Cert.Xent

/-- Reading the output array through the output window's block at point `t`: the array at the block's entries. -/
theorem read_blk2 {F : FTy → Type} [FloatOps F] (t : Fin cfg0.N) (g : S2x1x1.Idx → Elt F .f32) (y : S1x1x1.Idx) :
    ((cfg0.win 2).blk t).view.read (Elt F) g y = g (((cfg0.win 2).blk t).view.emb y) := rfl

variable (m : (ℓ : Loc nD τ sig) → Buf (Elt Ideal) ℓ) (ρ : Dev nD → PrngReg)

/-- What the output array ends holding: at entry `p`, the sum over lanes and steps of part `p`. -/
def partsFn (c : Dev nD) : S2x1x1.Idx → EReal :=
  fun i => ∑ l : Fin 65536, psum m c ((i 0).val * 64) 63 l

/-- The same, as contents of the output array's buffer. -/
abbrev parts (c : Dev nD) : Buf (Elt Ideal) ((c : Thread nD τ).loc main_v2) := partsFn m c

/-- After the last step of a part the output block holds the sum over the lanes of the part's partial sums. -/
theorem out_last (c : Dev nD) (t : Fin cfg0.N) (h63 : t.val % 64 = 63) :
    outAt m c t.val t.isLt (ix3 0 0 0) = ∑ l : Fin 65536, psum m c (t.val - 63) 63 l := by
  have h0 : ¬t.val % 64 = 0 := by omega
  rw [show outAt m c t.val t.isLt = _ from last_out m c t h0 h63, ← last_acc m c t h0 h63, pay4_apply]
  refine Finset.sum_congr rfl fun l _ => ?_
  rw [(inv m c t.val t.isLt).2 l, h63]

/-- The output window sits at entry `t / 64` at point `t`. -/
theorem idx2 : ∀ t : Fin cfg0.N, win0_2.index t (0 : Fin 3) = t.val / 64 ∧ win0_2.index t (1 : Fin 3) = 0 ∧ win0_2.index t (2 : Fin 3) = 0 :=
  (by decide +kernel : ∀ t : Fin grid0.N, win0_2.index t (0 : Fin 3) = t.val / 64 ∧ win0_2.index t (1 : Fin 3) = 0 ∧ win0_2.index t (2 : Fin 3) = 0)

theorem eq_ix3_000 (y : S1x1x1.Idx) : y = ix3 0 0 0 := by
  funext a
  apply Fin.ext
  have := (y a).isLt
  match a with
  | ⟨0, _⟩ => show (y 0).val = 0; have : (y 0).val < 1 := (y 0).isLt; omega
  | ⟨1, _⟩ => show (y 1).val = 0; have : (y 1).val < 1 := (y 1).isLt; omega
  | ⟨2, _⟩ => show (y 2).val = 0; have : (y 2).val < 1 := (y 2).isLt; omega

/-- What a flushing point writes back is its block of `parts`. -/
theorem flushed_eq (c : Dev nD) (t : Fin cfg0.N) (hf : (cfg0.win 2).flush t = true) :
    (dats m 0 c).flushed 2 t = ((cfg0.win 2).blk t).view.read (Elt Ideal) (parts m c) := by
  have h63 : t.val % 64 = 63 := (flush0_2 t).mp hf
  have e : ∀ i : S2x1x1.Idx, (i 0).val * 64 = t.val - 63 → partsFn m c i = ∑ l : Fin 65536, psum m c (t.val - 63) 63 l := by
    intro i hi; unfold partsFn; rw [hi]
  show (cfg0.win 2).cut (grid0.coords t) ((dats m 0 c).after 2 t) = _
  rw [after0_2]
  funext y
  have hy : y = ix3 0 0 0 := eq_ix3_000 y
  have hL : (cfg0.win 2).cut (grid0.coords t) (outsAt0 m c t.val t.isLt).1 y = outAt m c t.val t.isLt y := rfl
  have hR : ((cfg0.win 2).blk t).view.read (Elt Ideal) (parts m c) y = partsFn m c (((cfg0.win 2).blk t).view.emb y) :=
    read_blk2 (F := Ideal) t (partsFn m c) y
  have hE : ((((cfg0.win 2).blk t).view.emb y) 0).val = win0_2.index t 0 * 1 + 1 * (y 0).val := rfl
  rw [hL, hR, e _ (by rw [hE, (idx2 t).1, hy]; show (t.val / 64 * 1 + 1 * 0) * 64 = t.val - 63; omega), hy]
  exact out_last m c t h63

/-- The output window's block is one entry at every point. -/
theorem xsize2 : ∀ (t : Fin cfg0.N) (a : Fin 3), win0_2.xsize (grid0.coords t) a = 1 :=
  (by decide +kernel : ∀ (t : Fin grid0.N) (a : Fin 3), win0_2.xsize (grid0.coords t) a = 1)

/-- The two last steps' write-backs cover the output array. -/
theorem cover (c : Dev nD) (i : ((cfg0.win 2).arr.view.loc (c.tc : Thread nD τ)).2.ty.Idx) :
    ∃ t : Fin cfg0.N, (cfg0.win 2).flush t = true ∧ i ∈ ((cfg0.win 2).blk t).view.set := by
  have hN : cfg0.N = 128 := N_0
  have hi0 : (i 0).val < 2 := (i 0).isLt
  have hi1 : (i 1).val < 1 := (i 1).isLt
  have hi2 : (i 2).val < 1 := (i 2).isLt
  have ht : (i 0).val * 64 + 63 < cfg0.N := by omega
  refine ⟨⟨(i 0).val * 64 + 63, ht⟩, (flush0_2 _).mpr (by show ((i 0).val * 64 + 63) % 64 = 63; omega), ?_⟩
  show i ∈ ((View.whole main_v2).slice (win0_2.rect ⟨(i 0).val * 64 + 63, ht⟩)).set
  rw [View.set_slice_whole, Rect.mem_set_unit]
  intro a
  have hd : ((i 0).val * 64 + 63) / 64 = (i 0).val := by omega
  match a with
  | ⟨0, _⟩ =>
    show win0_2.index ⟨(i 0).val * 64 + 63, ht⟩ 0 * win0_2.size 0 ≤ (i 0 : Nat)
      ∧ (i 0 : Nat) < win0_2.index ⟨(i 0).val * 64 + 63, ht⟩ 0 * win0_2.size 0 + win0_2.xsize (grid0.coords ⟨(i 0).val * 64 + 63, ht⟩) 0
    rw [(idx2 _).1, xsize2, show win0_2.size 0 = 1 from rfl]
    show ((i 0).val * 64 + 63) / 64 * 1 ≤ (i 0).val ∧ (i 0).val < ((i 0).val * 64 + 63) / 64 * 1 + 1
    omega
  | ⟨1, _⟩ =>
    show win0_2.index ⟨(i 0).val * 64 + 63, ht⟩ 1 * win0_2.size 1 ≤ (i 1 : Nat)
      ∧ (i 1 : Nat) < win0_2.index ⟨(i 0).val * 64 + 63, ht⟩ 1 * win0_2.size 1 + win0_2.xsize (grid0.coords ⟨(i 0).val * 64 + 63, ht⟩) 1
    rw [(idx2 _).2.1, xsize2]; omega
  | ⟨2, _⟩ =>
    show win0_2.index ⟨(i 0).val * 64 + 63, ht⟩ 2 * win0_2.size 2 ≤ (i 2 : Nat)
      ∧ (i 2 : Nat) < win0_2.index ⟨(i 0).val * 64 + 63, ht⟩ 2 * win0_2.size 2 + win0_2.xsize (grid0.coords ⟨(i 0).val * 64 + 63, ht⟩) 2
    rw [(idx2 _).2.2, xsize2]; omega

/-- So the output array ends holding the parts' sums. -/
theorem final (c : Dev nD) : (dats m 0 c).arrAt 2 cfg0.N = parts m c :=
  (dats m 0 c).arrAt_eq_of_cover 2 (parts m c) (flushed_eq m c) (cover c)

/-- The host's sum of the two-entry array from zero. -/
theorem host_sum (g : FVec Ideal S2x1x1 .f32) (i : S_.Idx) :
    Host.reduceAdd (F := Ideal) g (constant S_ .f32 0x00000000#32) reducesTo_S2x1x1_S_d0_1_2 h_S_ i = 0 + ∑ j : S2x1x1.Idx, g j := by
  simp only [Host.reduceAdd, Ideal.hostReduceAdd_def]
  refine (Ideal.hostReduceAdd_total reducesTo_S2x1x1_S_d0_1_2 (fun b => b.elim0) g _ i).trans ?_
  exact congrArg (· + ∑ j : S2x1x1.Idx, g j) Ideal.ofBits_zero_f32

/-- A sum over the two-entry array's indices is the sum over its first coordinate. -/
theorem sum_idx211 (g : S2x1x1.Idx → EReal) : ∑ j : S2x1x1.Idx, g j = ∑ p : Fin 2, g (ix3 p 0 0) := by
  have hinv : ∀ j : S2x1x1.Idx, ix3 (j 0) (0 : Fin 1) (0 : Fin 1) = j := fun j => by
    funext a
    apply Fin.ext
    match a with
    | ⟨0, _⟩ => rfl
    | ⟨1, _⟩ => show 0 = (j 1).val; have : (j 1).val < 1 := (j 1).isLt; omega
    | ⟨2, _⟩ => show 0 = (j 2).val; have : (j 2).val < 1 := (j 2).isLt; omega
  refine Fintype.sum_equiv (⟨fun j => j 0, fun p => ix3 p 0 0, hinv, fun p => rfl⟩ : S2x1x1.Idx ≃ Fin 2) _ _ fun j => ?_
  exact congrArg g (hinv j).symm

/-- Parts, lanes and steps together meet every example once. -/
theorem parts_total (c : Dev nD) : ∑ j : S2x1x1.Idx, partsFn m c j = ∑ i : Fin 8388608, nll (xs m c) (ts m c) i := by
  rw [sum_idx211]
  refine Eq.trans ?_ ((Cert.LogSumExp.sum_blocks 8388608 2 64 65536 rfl (f m c)).trans
    (Finset.sum_congr rfl fun i _ => nllNat_val (xs m c) (ts m c) i))
  refine Finset.sum_congr rfl fun p _ => ?_
  rfl

/-- The operations after the region: the two entries added from zero, divided by the number of rows. -/
theorem tail_eq (c : Dev nD) :
    Pipeline.afterTail₀ cfgs (dats m) 0 (V0 m) [hostOps1] c main_v4 = loss (xs m c) (ts m c) := by
  unfold Pipeline.afterTail₀
  show StableHlo.after hostOps1 _ (Proc.devRef .tc main_v4) = _
  after_results
  rw [Pipeline.withArrays_arr spec0 launch0.win.arr_inj c _ _ 2]
  rw [show (dats m 0 c).arrAt 2 (cfgs 0).N = parts m c from final m c]
  funext i
  show Ideal.div (Host.reduceAdd (F := Ideal) (partsFn m c) (constant S_ .f32 0x00000000#32) reducesTo_S2x1x1_S_d0_1_2 h_S_ i)
      (Ideal.ofBits .f32 0x4B000000#32) = _
  rw [host_sum, parts_total]
  rfl

/-- The kernel's run, read: the result at the mean negative log-likelihood of the launched arrays, the arguments
    unchanged. -/
theorem run : θ_run defs (onTc (τ := τ) (main (F := Ideal))) ⟨m, fun _ => 0, ρ⟩ fun r => ∀ c : Dev nD,
      r.2.mem ((c.tc : Thread nD τ).loc main_v4) = loss (xs m c) (ts m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v4 (Pipeline.mem_restRefs_of main_v4 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.XValue

end
-- ==== Proof.RefStages.lean ====
/-
  The reference program's result as ONE function of its two arguments: after its forty-four host operations, run in
  order from the launch contents, the result buffer holds the last stage of the chain of stages (the log-softmax of
  the logits, the label's entry taken along each row, negated, summed from zero and divided by the number of rows),
  each stage a function of the stages before it. The operations are run in three stretches (the log-softmax; taking
  the label's entry; the mean), each stretch from whatever the stretch before left.
-/
import proofs.«417771_j1460288881356_3_alg».proof.Proof.RefRead
import Idealize.ShloMosaic.Lib.Pipeline.Frame

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-! ## The three stretches, their operations' functions left general

A typed reference's operation moves its function's operands and value along the reference's type equation; at a
literal reference that equation is an identity, and with the functions general the moves cancel in pairs. -/

/-- The first stretch's fifteen operations, their functions `g1 … g15` general. -/
abbrev gen1
    (g1 : (⟨S_, .f32⟩ : BufTy).Contents (Elt F))
    (g2 : (⟨S8388608x6, .f32⟩ : BufTy).Contents (Elt F) → (⟨S_, .f32⟩ : BufTy).Contents (Elt F) → (⟨S8388608, .f32⟩ : BufTy).Contents (Elt F))
    (g3 : (⟨S_, .f32⟩ : BufTy).Contents (Elt F))
    (g4 : (⟨S_, .f32⟩ : BufTy).Contents (Elt F) → (⟨S8388608, .f32⟩ : BufTy).Contents (Elt F))
    (g5 : (⟨S8388608, .f32⟩ : BufTy).Contents (Elt F) → (⟨S8388608, .f32⟩ : BufTy).Contents (Elt F) → (⟨S8388608, .f32⟩ : BufTy).Contents (Elt F))
    (g6 : (⟨S8388608, .f32⟩ : BufTy).Contents (Elt F) → (⟨S8388608x1, .f32⟩ : BufTy).Contents (Elt F))
    (g7 : (⟨S8388608x1, .f32⟩ : BufTy).Contents (Elt F) → (⟨S8388608x6, .f32⟩ : BufTy).Contents (Elt F))
    (g8 : (⟨S8388608x6, .f32⟩ : BufTy).Contents (Elt F) → (⟨S8388608x6, .f32⟩ : BufTy).Contents (Elt F) → (⟨S8388608x6, .f32⟩ : BufTy).Contents (Elt F))
    (g9 : (⟨S8388608x6, .f32⟩ : BufTy).Contents (Elt F) → (⟨S8388608x6, .f32⟩ : BufTy).Contents (Elt F))
    (g10 : (⟨S_, .f32⟩ : BufTy).Contents (Elt F))
    (g11 : (⟨S8388608x6, .f32⟩ : BufTy).Contents (Elt F) → (⟨S_, .f32⟩ : BufTy).Contents (Elt F) → (⟨S8388608, .f32⟩ : BufTy).Contents (Elt F))
    (g12 : (⟨S8388608, .f32⟩ : BufTy).Contents (Elt F) → (⟨S8388608x1, .f32⟩ : BufTy).Contents (Elt F))
    (g13 : (⟨S8388608x1, .f32⟩ : BufTy).Contents (Elt F) → (⟨S8388608x1, .f32⟩ : BufTy).Contents (Elt F))
    (g14 : (⟨S8388608x1, .f32⟩ : BufTy).Contents (Elt F) → (⟨S8388608x6, .f32⟩ : BufTy).Contents (Elt F))
    (g15 : (⟨S8388608x6, .f32⟩ : BufTy).Contents (Elt F) → (⟨S8388608x6, .f32⟩ : BufTy).Contents (Elt F) → (⟨S8388608x6, .f32⟩ : BufTy).Contents (Elt F)) :
    List (HloOp τ sig (Elt F)) :=
  [ TRef.nullary (TRef.of (T := ⟨S_, .f32⟩) main_call0_cst) g1,
    TRef.binary (TRef.of (T := ⟨S8388608x6, .f32⟩) main_arg0) (TRef.of (T := ⟨S_, .f32⟩) main_call0_cst) (TRef.of (T := ⟨S8388608, .f32⟩) main_call0_v0) g2,
    TRef.nullary (TRef.of (T := ⟨S_, .f32⟩) main_call0_cst_0) g3,
    TRef.unary (TRef.of (T := ⟨S_, .f32⟩) main_call0_cst_0) (TRef.of (T := ⟨S8388608, .f32⟩) main_call0_v1) g4,
    TRef.binary (TRef.of (T := ⟨S8388608, .f32⟩) main_call0_v1) (TRef.of (T := ⟨S8388608, .f32⟩) main_call0_v0) (TRef.of (T := ⟨S8388608, .f32⟩) main_call0_v2) g5,
    TRef.unary (TRef.of (T := ⟨S8388608, .f32⟩) main_call0_v2) (TRef.of (T := ⟨S8388608x1, .f32⟩) main_call0_v3) g6,
    TRef.unary (TRef.of (T := ⟨S8388608x1, .f32⟩) main_call0_v3) (TRef.of (T := ⟨S8388608x6, .f32⟩) main_call0_v4) g7,
    TRef.binary (TRef.of (T := ⟨S8388608x6, .f32⟩) main_arg0) (TRef.of (T := ⟨S8388608x6, .f32⟩) main_call0_v4) (TRef.of (T := ⟨S8388608x6, .f32⟩) main_call0_v5) g8,
    TRef.unary (TRef.of (T := ⟨S8388608x6, .f32⟩) main_call0_v5) (TRef.of (T := ⟨S8388608x6, .f32⟩) main_call0_v6) g9,
    TRef.nullary (TRef.of (T := ⟨S_, .f32⟩) main_call0_cst_1) g10,
    TRef.binary (TRef.of (T := ⟨S8388608x6, .f32⟩) main_call0_v6) (TRef.of (T := ⟨S_, .f32⟩) main_call0_cst_1) (TRef.of (T := ⟨S8388608, .f32⟩) main_call0_v7) g11,
    TRef.unary (TRef.of (T := ⟨S8388608, .f32⟩) main_call0_v7) (TRef.of (T := ⟨S8388608x1, .f32⟩) main_call0_v8) g12,
    TRef.unary (TRef.of (T := ⟨S8388608x1, .f32⟩) main_call0_v8) (TRef.of (T := ⟨S8388608x1, .f32⟩) main_call0_v9) g13,
    TRef.unary (TRef.of (T := ⟨S8388608x1, .f32⟩) main_call0_v9) (TRef.of (T := ⟨S8388608x6, .f32⟩) main_call0_v10) g14,
    TRef.binary (TRef.of (T := ⟨S8388608x6, .f32⟩) main_call0_v5) (TRef.of (T := ⟨S8388608x6, .f32⟩) main_call0_v10) (TRef.of (T := ⟨S8388608x6, .f32⟩) main_v0) g15 ]

set_option maxRecDepth 8192 in
/-- After the first stretch its last buffer holds the functions composed along the operations' operands, read from
    the first argument's contents. -/
theorem after_gen1_v0 (W : Valuation τ sig (Elt F))
    (g1 : (⟨S_, .f32⟩ : BufTy).Contents (Elt F))
    (g2 : (⟨S8388608x6, .f32⟩ : BufTy).Contents (Elt F) → (⟨S_, .f32⟩ : BufTy).Contents (Elt F) → (⟨S8388608, .f32⟩ : BufTy).Contents (Elt F))
    (g3 : (⟨S_, .f32⟩ : BufTy).Contents (Elt F))
    (g4 : (⟨S_, .f32⟩ : BufTy).Contents (Elt F) → (⟨S8388608, .f32⟩ : BufTy).Contents (Elt F))
    (g5 : (⟨S8388608, .f32⟩ : BufTy).Contents (Elt F) → (⟨S8388608, .f32⟩ : BufTy).Contents (Elt F) → (⟨S8388608, .f32⟩ : BufTy).Contents (Elt F))
    (g6 : (⟨S8388608, .f32⟩ : BufTy).Contents (Elt F) → (⟨S8388608x1, .f32⟩ : BufTy).Contents (Elt F))
    (g7 : (⟨S8388608x1, .f32⟩ : BufTy).Contents (Elt F) → (⟨S8388608x6, .f32⟩ : BufTy).Contents (Elt F))
    (g8 : (⟨S8388608x6, .f32⟩ : BufTy).Contents (Elt F) → (⟨S8388608x6, .f32⟩ : BufTy).Contents (Elt F) → (⟨S8388608x6, .f32⟩ : BufTy).Contents (Elt F))
    (g9 : (⟨S8388608x6, .f32⟩ : BufTy).Contents (Elt F) → (⟨S8388608x6, .f32⟩ : BufTy).Contents (Elt F))
    (g10 : (⟨S_, .f32⟩ : BufTy).Contents (Elt F))
    (g11 : (⟨S8388608x6, .f32⟩ : BufTy).Contents (Elt F) → (⟨S_, .f32⟩ : BufTy).Contents (Elt F) → (⟨S8388608, .f32⟩ : BufTy).Contents (Elt F))
    (g12 : (⟨S8388608, .f32⟩ : BufTy).Contents (Elt F) → (⟨S8388608x1, .f32⟩ : BufTy).Contents (Elt F))
    (g13 : (⟨S8388608x1, .f32⟩ : BufTy).Contents (Elt F) → (⟨S8388608x1, .f32⟩ : BufTy).Contents (Elt F))
    (g14 : (⟨S8388608x1, .f32⟩ : BufTy).Contents (Elt F) → (⟨S8388608x6, .f32⟩ : BufTy).Contents (Elt F))
    (g15 : (⟨S8388608x6, .f32⟩ : BufTy).Contents (Elt F) → (⟨S8388608x6, .f32⟩ : BufTy).Contents (Elt F) → (⟨S8388608x6, .f32⟩ : BufTy).Contents (Elt F)) :
    after (gen1 (F := F) g1 g2 g3 g4 g5 g6 g7 g8 g9 g10 g11 g12 g13 g14 g15) W (Proc.tc.devRef main_v0)
      = (g15 (g8 (W (Proc.tc.devRef main_arg0)) (g7 (g6 (g5 (g4 g3) (g2 (W (Proc.tc.devRef main_arg0)) g1))))) (g14 (g13 (g12 (g11 (g9 (g8 (W (Proc.tc.devRef main_arg0)) (g7 (g6 (g5 (g4 g3) (g2 (W (Proc.tc.devRef main_arg0)) g1)))))) g10))))) := by
  after_results_simp
  simp only [TRef.ofBuf, TRef.toBuf, cast_cast, cast_eq]

/-- The first stretch writes neither argument: the labels stay. -/
theorem after_gen1_arg1 (W : Valuation τ sig (Elt F))
    (g1 : (⟨S_, .f32⟩ : BufTy).Contents (Elt F))
    (g2 : (⟨S8388608x6, .f32⟩ : BufTy).Contents (Elt F) → (⟨S_, .f32⟩ : BufTy).Contents (Elt F) → (⟨S8388608, .f32⟩ : BufTy).Contents (Elt F))
    (g3 : (⟨S_, .f32⟩ : BufTy).Contents (Elt F))
    (g4 : (⟨S_, .f32⟩ : BufTy).Contents (Elt F) → (⟨S8388608, .f32⟩ : BufTy).Contents (Elt F))
    (g5 : (⟨S8388608, .f32⟩ : BufTy).Contents (Elt F) → (⟨S8388608, .f32⟩ : BufTy).Contents (Elt F) → (⟨S8388608, .f32⟩ : BufTy).Contents (Elt F))
    (g6 : (⟨S8388608, .f32⟩ : BufTy).Contents (Elt F) → (⟨S8388608x1, .f32⟩ : BufTy).Contents (Elt F))
    (g7 : (⟨S8388608x1, .f32⟩ : BufTy).Contents (Elt F) → (⟨S8388608x6, .f32⟩ : BufTy).Contents (Elt F))
    (g8 : (⟨S8388608x6, .f32⟩ : BufTy).Contents (Elt F) → (⟨S8388608x6, .f32⟩ : BufTy).Contents (Elt F) → (⟨S8388608x6, .f32⟩ : BufTy).Contents (Elt F))
    (g9 : (⟨S8388608x6, .f32⟩ : BufTy).Contents (Elt F) → (⟨S8388608x6, .f32⟩ : BufTy).Contents (Elt F))
    (g10 : (⟨S_, .f32⟩ : BufTy).Contents (Elt F))
    (g11 : (⟨S8388608x6, .f32⟩ : BufTy).Contents (Elt F) → (⟨S_, .f32⟩ : BufTy).Contents (Elt F) → (⟨S8388608, .f32⟩ : BufTy).Contents (Elt F))
    (g12 : (⟨S8388608, .f32⟩ : BufTy).Contents (Elt F) → (⟨S8388608x1, .f32⟩ : BufTy).Contents (Elt F))
    (g13 : (⟨S8388608x1, .f32⟩ : BufTy).Contents (Elt F) → (⟨S8388608x1, .f32⟩ : BufTy).Contents (Elt F))
    (g14 : (⟨S8388608x1, .f32⟩ : BufTy).Contents (Elt F) → (⟨S8388608x6, .f32⟩ : BufTy).Contents (Elt F))
    (g15 : (⟨S8388608x6, .f32⟩ : BufTy).Contents (Elt F) → (⟨S8388608x6, .f32⟩ : BufTy).Contents (Elt F) → (⟨S8388608x6, .f32⟩ : BufTy).Contents (Elt F)) :
    after (gen1 (F := F) g1 g2 g3 g4 g5 g6 g7 g8 g9 g10 g11 g12 g13 g14 g15) W (Proc.tc.devRef main_arg1) = W (Proc.tc.devRef main_arg1) := by
  after_results_simp

/-- The second stretch's twenty-three operations, their functions `g16 … g38` general (the reshape has none). -/
abbrev gen2
    (g16 : (⟨S8388608, .i32⟩ : BufTy).Contents (Elt F) → (⟨S8388608x1, .i32⟩ : BufTy).Contents (Elt F))
    (g17 : (⟨S_, .i32⟩ : BufTy).Contents (Elt F))
    (g18 : (⟨S_, .i32⟩ : BufTy).Contents (Elt F) → (⟨S8388608x1, .i32⟩ : BufTy).Contents (Elt F))
    (g19 : (⟨S8388608x1, .i32⟩ : BufTy).Contents (Elt F) → (⟨S8388608x1, .i32⟩ : BufTy).Contents (Elt F) → (⟨S8388608x1, .i1⟩ : BufTy).Contents (Elt F))
    (g20 : (⟨S_, .i32⟩ : BufTy).Contents (Elt F))
    (g21 : (⟨S_, .i32⟩ : BufTy).Contents (Elt F) → (⟨S8388608x1, .i32⟩ : BufTy).Contents (Elt F))
    (g22 : (⟨S8388608x1, .i32⟩ : BufTy).Contents (Elt F) → (⟨S8388608x1, .i32⟩ : BufTy).Contents (Elt F) → (⟨S8388608x1, .i32⟩ : BufTy).Contents (Elt F))
    (g23 : (⟨S8388608x1, .i1⟩ : BufTy).Contents (Elt F) → (⟨S8388608x1, .i32⟩ : BufTy).Contents (Elt F) → (⟨S8388608x1, .i32⟩ : BufTy).Contents (Elt F) → (⟨S8388608x1, .i32⟩ : BufTy).Contents (Elt F))
    (g25 : (⟨S1, .i32⟩ : BufTy).Contents (Elt F))
    (g26 : (⟨S_, .i32⟩ : BufTy).Contents (Elt F))
    (g27 : (⟨S_, .i32⟩ : BufTy).Contents (Elt F) → (⟨S8388608x1x1, .i32⟩ : BufTy).Contents (Elt F))
    (g28 : (⟨S8388608x1x1, .i32⟩ : BufTy).Contents (Elt F) → (⟨S8388608x1x1, .i32⟩ : BufTy).Contents (Elt F) → (⟨S8388608x1x1, .i1⟩ : BufTy).Contents (Elt F))
    (g29 : (⟨S1, .i32⟩ : BufTy).Contents (Elt F) → (⟨S1x1x1, .i32⟩ : BufTy).Contents (Elt F))
    (g30 : (⟨S1x1x1, .i32⟩ : BufTy).Contents (Elt F) → (⟨S8388608x1x1, .i32⟩ : BufTy).Contents (Elt F))
    (g31 : (⟨S8388608x1x1, .i32⟩ : BufTy).Contents (Elt F) → (⟨S8388608x1x1, .i32⟩ : BufTy).Contents (Elt F) → (⟨S8388608x1x1, .i1⟩ : BufTy).Contents (Elt F))
    (g32 : (⟨S8388608x1x1, .i1⟩ : BufTy).Contents (Elt F) → (⟨S8388608x1x1, .i1⟩ : BufTy).Contents (Elt F) → (⟨S8388608x1x1, .i1⟩ : BufTy).Contents (Elt F))
    (g33 : (⟨S_, .i1⟩ : BufTy).Contents (Elt F))
    (g34 : (⟨S8388608x1x1, .i1⟩ : BufTy).Contents (Elt F) → (⟨S_, .i1⟩ : BufTy).Contents (Elt F) → (⟨S8388608x1, .i1⟩ : BufTy).Contents (Elt F))
    (g35 : (⟨S8388608x6, .f32⟩ : BufTy).Contents (Elt F) → (⟨S8388608x1x1, .i32⟩ : BufTy).Contents (Elt F) → (⟨S8388608x1, .f32⟩ : BufTy).Contents (Elt F))
    (g36 : (⟨S_, .f32⟩ : BufTy).Contents (Elt F))
    (g37 : (⟨S_, .f32⟩ : BufTy).Contents (Elt F) → (⟨S8388608x1, .f32⟩ : BufTy).Contents (Elt F))
    (g38 : (⟨S8388608x1, .i1⟩ : BufTy).Contents (Elt F) → (⟨S8388608x1, .f32⟩ : BufTy).Contents (Elt F) → (⟨S8388608x1, .f32⟩ : BufTy).Contents (Elt F) → (⟨S8388608x1, .f32⟩ : BufTy).Contents (Elt F)) :
    List (HloOp τ sig (Elt F)) :=
  [ unary main_arg1 main_v1 g16,
    TRef.nullary (TRef.of (T := ⟨S_, .i32⟩) main_call1_c) g17,
    TRef.unary (TRef.of (T := ⟨S_, .i32⟩) main_call1_c) (TRef.of (T := ⟨S8388608x1, .i32⟩) main_call1_v0) g18,
    TRef.binary (TRef.of (T := ⟨S8388608x1, .i32⟩) main_v1) (TRef.of (T := ⟨S8388608x1, .i32⟩) main_call1_v0) (TRef.of (T := ⟨S8388608x1, .i1⟩) main_call1_v1) g19,
    TRef.nullary (TRef.of (T := ⟨S_, .i32⟩) main_call1_c_0) g20,
    TRef.unary (TRef.of (T := ⟨S_, .i32⟩) main_call1_c_0) (TRef.of (T := ⟨S8388608x1, .i32⟩) main_call1_v2) g21,
    TRef.binary (TRef.of (T := ⟨S8388608x1, .i32⟩) main_v1) (TRef.of (T := ⟨S8388608x1, .i32⟩) main_call1_v2) (TRef.of (T := ⟨S8388608x1, .i32⟩) main_call1_v3) g22,
    TRef.ternary (TRef.of (T := ⟨S8388608x1, .i1⟩) main_call1_v1) (TRef.of (T := ⟨S8388608x1, .i32⟩) main_call1_v3) (TRef.of (T := ⟨S8388608x1, .i32⟩) main_v1) (TRef.of (T := ⟨S8388608x1, .i32⟩) main_call1_v4) g23,
    TRef.reshape (TRef.of (T := ⟨S8388608x1, .i32⟩) main_call1_v4) (TRef.of (T := ⟨S8388608x1x1, .i32⟩) main_call1_v5) rfl shapeCasts_S8388608x1_S8388608x1x1,
    TRef.nullary (TRef.of (T := ⟨S1, .i32⟩) main_call1_c_1) g25,
    TRef.nullary (TRef.of (T := ⟨S_, .i32⟩) main_call1_c_2) g26,
    TRef.unary (TRef.of (T := ⟨S_, .i32⟩) main_call1_c_2) (TRef.of (T := ⟨S8388608x1x1, .i32⟩) main_call1_v6) g27,
    TRef.binary (TRef.of (T := ⟨S8388608x1x1, .i32⟩) main_call1_v5) (TRef.of (T := ⟨S8388608x1x1, .i32⟩) main_call1_v6) (TRef.of (T := ⟨S8388608x1x1, .i1⟩) main_call1_v7) g28,
    TRef.unary (TRef.of (T := ⟨S1, .i32⟩) main_call1_c_1) (TRef.of (T := ⟨S1x1x1, .i32⟩) main_call1_v8) g29,
    TRef.unary (TRef.of (T := ⟨S1x1x1, .i32⟩) main_call1_v8) (TRef.of (T := ⟨S8388608x1x1, .i32⟩) main_call1_v9) g30,
    TRef.binary (TRef.of (T := ⟨S8388608x1x1, .i32⟩) main_call1_v5) (TRef.of (T := ⟨S8388608x1x1, .i32⟩) main_call1_v9) (TRef.of (T := ⟨S8388608x1x1, .i1⟩) main_call1_v10) g31,
    TRef.binary (TRef.of (T := ⟨S8388608x1x1, .i1⟩) main_call1_v7) (TRef.of (T := ⟨S8388608x1x1, .i1⟩) main_call1_v10) (TRef.of (T := ⟨S8388608x1x1, .i1⟩) main_call1_v11) g32,
    TRef.nullary (TRef.of (T := ⟨S_, .i1⟩) main_call1_c_3) g33,
    TRef.binary (TRef.of (T := ⟨S8388608x1x1, .i1⟩) main_call1_v11) (TRef.of (T := ⟨S_, .i1⟩) main_call1_c_3) (TRef.of (T := ⟨S8388608x1, .i1⟩) main_call1_v12) g34,
    TRef.binary (TRef.of (T := ⟨S8388608x6, .f32⟩) main_v0) (TRef.of (T := ⟨S8388608x1x1, .i32⟩) main_call1_v5) (TRef.of (T := ⟨S8388608x1, .f32⟩) main_call1_v13) g35,
    TRef.nullary (TRef.of (T := ⟨S_, .f32⟩) main_call1_cst) g36,
    TRef.unary (TRef.of (T := ⟨S_, .f32⟩) main_call1_cst) (TRef.of (T := ⟨S8388608x1, .f32⟩) main_call1_v14) g37,
    TRef.ternary (TRef.of (T := ⟨S8388608x1, .i1⟩) main_call1_v12) (TRef.of (T := ⟨S8388608x1, .f32⟩) main_call1_v13) (TRef.of (T := ⟨S8388608x1, .f32⟩) main_call1_v14) (TRef.of (T := ⟨S8388608x1, .f32⟩) main_v2) g38 ]

set_option maxRecDepth 8192 in
/-- After the second stretch its last buffer holds the functions composed along the operations' operands, read from
    the labels' contents and the first stretch's last buffer. -/
theorem after_gen2_v2 (W : Valuation τ sig (Elt F))
    (g16 : (⟨S8388608, .i32⟩ : BufTy).Contents (Elt F) → (⟨S8388608x1, .i32⟩ : BufTy).Contents (Elt F))
    (g17 : (⟨S_, .i32⟩ : BufTy).Contents (Elt F))
    (g18 : (⟨S_, .i32⟩ : BufTy).Contents (Elt F) → (⟨S8388608x1, .i32⟩ : BufTy).Contents (Elt F))
    (g19 : (⟨S8388608x1, .i32⟩ : BufTy).Contents (Elt F) → (⟨S8388608x1, .i32⟩ : BufTy).Contents (Elt F) → (⟨S8388608x1, .i1⟩ : BufTy).Contents (Elt F))
    (g20 : (⟨S_, .i32⟩ : BufTy).Contents (Elt F))
    (g21 : (⟨S_, .i32⟩ : BufTy).Contents (Elt F) → (⟨S8388608x1, .i32⟩ : BufTy).Contents (Elt F))
    (g22 : (⟨S8388608x1, .i32⟩ : BufTy).Contents (Elt F) → (⟨S8388608x1, .i32⟩ : BufTy).Contents (Elt F) → (⟨S8388608x1, .i32⟩ : BufTy).Contents (Elt F))
    (g23 : (⟨S8388608x1, .i1⟩ : BufTy).Contents (Elt F) → (⟨S8388608x1, .i32⟩ : BufTy).Contents (Elt F) → (⟨S8388608x1, .i32⟩ : BufTy).Contents (Elt F) → (⟨S8388608x1, .i32⟩ : BufTy).Contents (Elt F))
    (g25 : (⟨S1, .i32⟩ : BufTy).Contents (Elt F))
    (g26 : (⟨S_, .i32⟩ : BufTy).Contents (Elt F))
    (g27 : (⟨S_, .i32⟩ : BufTy).Contents (Elt F) → (⟨S8388608x1x1, .i32⟩ : BufTy).Contents (Elt F))
    (g28 : (⟨S8388608x1x1, .i32⟩ : BufTy).Contents (Elt F) → (⟨S8388608x1x1, .i32⟩ : BufTy).Contents (Elt F) → (⟨S8388608x1x1, .i1⟩ : BufTy).Contents (Elt F))
    (g29 : (⟨S1, .i32⟩ : BufTy).Contents (Elt F) → (⟨S1x1x1, .i32⟩ : BufTy).Contents (Elt F))
    (g30 : (⟨S1x1x1, .i32⟩ : BufTy).Contents (Elt F) → (⟨S8388608x1x1, .i32⟩ : BufTy).Contents (Elt F))
    (g31 : (⟨S8388608x1x1, .i32⟩ : BufTy).Contents (Elt F) → (⟨S8388608x1x1, .i32⟩ : BufTy).Contents (Elt F) → (⟨S8388608x1x1, .i1⟩ : BufTy).Contents (Elt F))
    (g32 : (⟨S8388608x1x1, .i1⟩ : BufTy).Contents (Elt F) → (⟨S8388608x1x1, .i1⟩ : BufTy).Contents (Elt F) → (⟨S8388608x1x1, .i1⟩ : BufTy).Contents (Elt F))
    (g33 : (⟨S_, .i1⟩ : BufTy).Contents (Elt F))
    (g34 : (⟨S8388608x1x1, .i1⟩ : BufTy).Contents (Elt F) → (⟨S_, .i1⟩ : BufTy).Contents (Elt F) → (⟨S8388608x1, .i1⟩ : BufTy).Contents (Elt F))
    (g35 : (⟨S8388608x6, .f32⟩ : BufTy).Contents (Elt F) → (⟨S8388608x1x1, .i32⟩ : BufTy).Contents (Elt F) → (⟨S8388608x1, .f32⟩ : BufTy).Contents (Elt F))
    (g36 : (⟨S_, .f32⟩ : BufTy).Contents (Elt F))
    (g37 : (⟨S_, .f32⟩ : BufTy).Contents (Elt F) → (⟨S8388608x1, .f32⟩ : BufTy).Contents (Elt F))
    (g38 : (⟨S8388608x1, .i1⟩ : BufTy).Contents (Elt F) → (⟨S8388608x1, .f32⟩ : BufTy).Contents (Elt F) → (⟨S8388608x1, .f32⟩ : BufTy).Contents (Elt F) → (⟨S8388608x1, .f32⟩ : BufTy).Contents (Elt F)) :
    after (gen2 (F := F) g16 g17 g18 g19 g20 g21 g22 g23 g25 g26 g27 g28 g29 g30 g31 g32 g33 g34 g35 g36 g37 g38) W (Proc.tc.devRef main_v2)
      = (g38 (g34 (g32 (g28 (shapeCast _ (g23 (g19 (g16 (W (Proc.tc.devRef main_arg1))) (g18 g17)) (g22 (g16 (W (Proc.tc.devRef main_arg1))) (g21 g20)) (g16 (W (Proc.tc.devRef main_arg1)))) shapeCasts_S8388608x1_S8388608x1x1) (g27 g26)) (g31 (shapeCast _ (g23 (g19 (g16 (W (Proc.tc.devRef main_arg1))) (g18 g17)) (g22 (g16 (W (Proc.tc.devRef main_arg1))) (g21 g20)) (g16 (W (Proc.tc.devRef main_arg1)))) shapeCasts_S8388608x1_S8388608x1x1) (g30 (g29 g25)))) g33) (g35 (W (Proc.tc.devRef main_v0)) (shapeCast _ (g23 (g19 (g16 (W (Proc.tc.devRef main_arg1))) (g18 g17)) (g22 (g16 (W (Proc.tc.devRef main_arg1))) (g21 g20)) (g16 (W (Proc.tc.devRef main_arg1)))) shapeCasts_S8388608x1_S8388608x1x1)) (g37 g36)) := by
  after_results_simp
  simp only [TRef.ofBuf, TRef.toBuf, cast_cast, cast_eq]
  rfl

/-- The first stretch: the log-softmax (operations 1 to 15). -/
abbrev ops1 : List (HloOp τ sig (Elt F)) :=
  gen1 (F := F)
    ((constant S_ .f32 0xFF800000#32) : (⟨S_, .f32⟩ : BufTy).Contents (Elt F))
    ((fun x v => Host.reduce FloatOps.maximumf x v reducesTo_S8388608x6_S8388608_d1 h_S_) : (⟨S8388608x6, .f32⟩ : BufTy).Contents (Elt F) → (⟨S_, .f32⟩ : BufTy).Contents (Elt F) → (⟨S8388608, .f32⟩ : BufTy).Contents (Elt F))
    ((constant S_ .f32 0xFF800000#32) : (⟨S_, .f32⟩ : BufTy).Contents (Elt F))
    ((broadcastInDim S8388608 ![] bcast_S_S8388608) : (⟨S_, .f32⟩ : BufTy).Contents (Elt F) → (⟨S8388608, .f32⟩ : BufTy).Contents (Elt F))
    (maximumf : (⟨S8388608, .f32⟩ : BufTy).Contents (Elt F) → (⟨S8388608, .f32⟩ : BufTy).Contents (Elt F) → (⟨S8388608, .f32⟩ : BufTy).Contents (Elt F))
    ((broadcastInDim S8388608x1 ![0] bcast_S8388608_S8388608x1_0) : (⟨S8388608, .f32⟩ : BufTy).Contents (Elt F) → (⟨S8388608x1, .f32⟩ : BufTy).Contents (Elt F))
    ((broadcastInDim S8388608x6 ![0, 1] bcast_S8388608x1_S8388608x6_0_1) : (⟨S8388608x1, .f32⟩ : BufTy).Contents (Elt F) → (⟨S8388608x6, .f32⟩ : BufTy).Contents (Elt F))
    (subf : (⟨S8388608x6, .f32⟩ : BufTy).Contents (Elt F) → (⟨S8388608x6, .f32⟩ : BufTy).Contents (Elt F) → (⟨S8388608x6, .f32⟩ : BufTy).Contents (Elt F))
    (Host.exp : (⟨S8388608x6, .f32⟩ : BufTy).Contents (Elt F) → (⟨S8388608x6, .f32⟩ : BufTy).Contents (Elt F))
    ((constant S_ .f32 0x00000000#32) : (⟨S_, .f32⟩ : BufTy).Contents (Elt F))
    ((fun x v => Host.reduceAdd x v reducesTo_S8388608x6_S8388608_d1 h_S_) : (⟨S8388608x6, .f32⟩ : BufTy).Contents (Elt F) → (⟨S_, .f32⟩ : BufTy).Contents (Elt F) → (⟨S8388608, .f32⟩ : BufTy).Contents (Elt F))
    ((broadcastInDim S8388608x1 ![0] bcast_S8388608_S8388608x1_0) : (⟨S8388608, .f32⟩ : BufTy).Contents (Elt F) → (⟨S8388608x1, .f32⟩ : BufTy).Contents (Elt F))
    (Host.log : (⟨S8388608x1, .f32⟩ : BufTy).Contents (Elt F) → (⟨S8388608x1, .f32⟩ : BufTy).Contents (Elt F))
    ((broadcastInDim S8388608x6 ![0, 1] bcast_S8388608x1_S8388608x6_0_1) : (⟨S8388608x1, .f32⟩ : BufTy).Contents (Elt F) → (⟨S8388608x6, .f32⟩ : BufTy).Contents (Elt F))
    (subf : (⟨S8388608x6, .f32⟩ : BufTy).Contents (Elt F) → (⟨S8388608x6, .f32⟩ : BufTy).Contents (Elt F) → (⟨S8388608x6, .f32⟩ : BufTy).Contents (Elt F))

/-- The second stretch: the label's entry along each row (operations 16 to 38). -/
abbrev ops2 : List (HloOp τ sig (Elt F)) :=
  gen2 (F := F)
    (broadcastInDim S8388608x1 ![0] bcast_S8388608_S8388608x1_0 : (⟨S8388608, .i32⟩ : BufTy).Contents (Elt F) → (⟨S8388608x1, .i32⟩ : BufTy).Contents (Elt F))
    ((constantI S_ 32 0#32) : (⟨S_, .i32⟩ : BufTy).Contents (Elt F))
    ((broadcastInDim S8388608x1 ![] bcast_S_S8388608x1) : (⟨S_, .i32⟩ : BufTy).Contents (Elt F) → (⟨S8388608x1, .i32⟩ : BufTy).Contents (Elt F))
    ((cmpi .slt) : (⟨S8388608x1, .i32⟩ : BufTy).Contents (Elt F) → (⟨S8388608x1, .i32⟩ : BufTy).Contents (Elt F) → (⟨S8388608x1, .i1⟩ : BufTy).Contents (Elt F))
    ((constantI S_ 32 6#32) : (⟨S_, .i32⟩ : BufTy).Contents (Elt F))
    ((broadcastInDim S8388608x1 ![] bcast_S_S8388608x1) : (⟨S_, .i32⟩ : BufTy).Contents (Elt F) → (⟨S8388608x1, .i32⟩ : BufTy).Contents (Elt F))
    (addi : (⟨S8388608x1, .i32⟩ : BufTy).Contents (Elt F) → (⟨S8388608x1, .i32⟩ : BufTy).Contents (Elt F) → (⟨S8388608x1, .i32⟩ : BufTy).Contents (Elt F))
    (select : (⟨S8388608x1, .i1⟩ : BufTy).Contents (Elt F) → (⟨S8388608x1, .i32⟩ : BufTy).Contents (Elt F) → (⟨S8388608x1, .i32⟩ : BufTy).Contents (Elt F) → (⟨S8388608x1, .i32⟩ : BufTy).Contents (Elt F))
    ((constantI S1 32 5#32) : (⟨S1, .i32⟩ : BufTy).Contents (Elt F))
    ((constantI S_ 32 0#32) : (⟨S_, .i32⟩ : BufTy).Contents (Elt F))
    ((broadcastInDim S8388608x1x1 ![] bcast_S_S8388608x1x1) : (⟨S_, .i32⟩ : BufTy).Contents (Elt F) → (⟨S8388608x1x1, .i32⟩ : BufTy).Contents (Elt F))
    ((cmpi .sge) : (⟨S8388608x1x1, .i32⟩ : BufTy).Contents (Elt F) → (⟨S8388608x1x1, .i32⟩ : BufTy).Contents (Elt F) → (⟨S8388608x1x1, .i1⟩ : BufTy).Contents (Elt F))
    ((broadcastInDim S1x1x1 ![2] bcast_S1_S1x1x1_2) : (⟨S1, .i32⟩ : BufTy).Contents (Elt F) → (⟨S1x1x1, .i32⟩ : BufTy).Contents (Elt F))
    ((broadcastInDim S8388608x1x1 ![0, 1, 2] bcast_S1x1x1_S8388608x1x1_0_1_2) : (⟨S1x1x1, .i32⟩ : BufTy).Contents (Elt F) → (⟨S8388608x1x1, .i32⟩ : BufTy).Contents (Elt F))
    ((cmpi .sle) : (⟨S8388608x1x1, .i32⟩ : BufTy).Contents (Elt F) → (⟨S8388608x1x1, .i32⟩ : BufTy).Contents (Elt F) → (⟨S8388608x1x1, .i1⟩ : BufTy).Contents (Elt F))
    (andi : (⟨S8388608x1x1, .i1⟩ : BufTy).Contents (Elt F) → (⟨S8388608x1x1, .i1⟩ : BufTy).Contents (Elt F) → (⟨S8388608x1x1, .i1⟩ : BufTy).Contents (Elt F))
    ((constantI S_ 1 1#1) : (⟨S_, .i1⟩ : BufTy).Contents (Elt F))
    ((fun x v => Host.reduce IntOp.andi x v reducesTo_S8388608x1x1_S8388608x1_d2 h_S_) : (⟨S8388608x1x1, .i1⟩ : BufTy).Contents (Elt F) → (⟨S_, .i1⟩ : BufTy).Contents (Elt F) → (⟨S8388608x1, .i1⟩ : BufTy).Contents (Elt F))
    ((fun x i => Host.gather gather_S8388608x6_S8388608x1x1_S8388608x1_n_1_0_0_1_2_11 x i) : (⟨S8388608x6, .f32⟩ : BufTy).Contents (Elt F) → (⟨S8388608x1x1, .i32⟩ : BufTy).Contents (Elt F) → (⟨S8388608x1, .f32⟩ : BufTy).Contents (Elt F))
    ((constant S_ .f32 0x7FC00000#32) : (⟨S_, .f32⟩ : BufTy).Contents (Elt F))
    ((broadcastInDim S8388608x1 ![] bcast_S_S8388608x1) : (⟨S_, .f32⟩ : BufTy).Contents (Elt F) → (⟨S8388608x1, .f32⟩ : BufTy).Contents (Elt F))
    (select : (⟨S8388608x1, .i1⟩ : BufTy).Contents (Elt F) → (⟨S8388608x1, .f32⟩ : BufTy).Contents (Elt F) → (⟨S8388608x1, .f32⟩ : BufTy).Contents (Elt F) → (⟨S8388608x1, .f32⟩ : BufTy).Contents (Elt F))

/-- The third stretch: the mean of the negated entries (operations 39 to 44). -/
abbrev ops3 : List (HloOp τ sig (Elt F)) :=
  [ reshape main_v2 main_v3 rfl shapeCasts_S8388608x1_S8388608,
    unary main_v3 main_v4 (Host.negf : (⟨S8388608, .f32⟩ : BufTy).Contents (Elt F) → (⟨S8388608, .f32⟩ : BufTy).Contents (Elt F)),
    nullary main_cst (constant S_ .f32 0x00000000#32),
    binary main_v4 main_cst main_v5 ((fun x v => Host.reduceAdd x v reducesTo_S8388608_S_d0 h_S_) : (⟨S8388608, .f32⟩ : BufTy).Contents (Elt F) → (⟨S_, .f32⟩ : BufTy).Contents (Elt F) → (⟨S_, .f32⟩ : BufTy).Contents (Elt F)),
    nullary main_cst_0 (constant S_ .f32 0x4B000000#32),
    binary main_v5 main_cst_0 main_v6 (Host.divf : (⟨S_, .f32⟩ : BufTy).Contents (Elt F) → (⟨S_, .f32⟩ : BufTy).Contents (Elt F) → (⟨S_, .f32⟩ : BufTy).Contents (Elt F)) ]

/-- The label's entry of each row of `y0`, not-a-number where the label is out of range: the second stretch's result
    as a function of the log-softmax `y0` and the labels `t`. -/
def take (y0 : (⟨S8388608x6, .f32⟩ : BufTy).Contents (Elt F)) (t : (⟨S8388608, .i32⟩ : BufTy).Contents (Elt F)) : (⟨S8388608x1, .f32⟩ : BufTy).Contents (Elt F) :=
  select (Read.val_main_call1_v12 (F := F) t)
    (Host.gather gather_S8388608x6_S8388608x1x1_S8388608x1_n_1_0_0_1_2_11 y0 (Read.val_main_call1_v5 (F := F) t))
    (Read.val_main_call1_v14 (F := F))

theorem take_eq (x0 : (⟨S8388608x6, .f32⟩ : BufTy).Contents (Elt F)) (x1 : (⟨S8388608, .i32⟩ : BufTy).Contents (Elt F)) :
    take (F := F) (Read.val_main_v0 (F := F) x0) x1 = Read.val_main_v2 (F := F) x0 x1 := rfl

/-- The mean of the negated entries `y2`: the third stretch's result as a function of the second's. -/
def mean (y2 : (⟨S8388608x1, .f32⟩ : BufTy).Contents (Elt F)) : (⟨S_, .f32⟩ : BufTy).Contents (Elt F) :=
  Host.divf (Host.reduceAdd (Host.negf (shapeCast _ y2 shapeCasts_S8388608x1_S8388608)) (Read.val_main_cst (F := F)) reducesTo_S8388608_S_d0 h_S_)
    (Read.val_main_cst_0 (F := F))

theorem mean_eq (x0 : (⟨S8388608x6, .f32⟩ : BufTy).Contents (Elt F)) (x1 : (⟨S8388608, .i32⟩ : BufTy).Contents (Elt F)) :
    mean (F := F) (Read.val_main_v2 (F := F) x0 x1) = Read.val_main_v6 (F := F) x0 x1 := rfl

/-! ## The stretches at the reference's own functions -/

set_option maxRecDepth 8192 in
/-- After the first stretch the log-softmax's buffer holds the log-softmax stage of the logits it started from. -/
theorem after1_v0 (W : Valuation τ sig (Elt F)) :
    after (ops1 (F := F)) W (Proc.tc.devRef main_v0) = Read.val_main_v0 (F := F) (W (Proc.tc.devRef main_arg0)) :=
  (after_gen1_v0 W _ _ _ _ _ _ _ _ _ _ _ _ _ _ _).trans rfl

/-- The first stretch leaves the labels. -/
theorem after1_arg1 (W : Valuation τ sig (Elt F)) :
    after (ops1 (F := F)) W (Proc.tc.devRef main_arg1) = W (Proc.tc.devRef main_arg1) :=
  after_gen1_arg1 W _ _ _ _ _ _ _ _ _ _ _ _ _ _ _

set_option maxRecDepth 8192 in
/-- After the second stretch the taken entries' buffer holds `take` of the log-softmax's buffer and the labels. -/
theorem after2_v2 (W : Valuation τ sig (Elt F)) :
    after (ops2 (F := F)) W (Proc.tc.devRef main_v2)
      = take (F := F) (W (Proc.tc.devRef main_v0)) (W (Proc.tc.devRef main_arg1)) :=
  (after_gen2_v2 W _ _ _ _ _ _ _ _ _ _ _ _ _ _ _ _ _ _ _ _ _ _).trans rfl

set_option maxRecDepth 8192 in
/-- After the third stretch the result buffer holds `mean` of the taken entries' buffer. -/
theorem after3_v6 (W : Valuation τ sig (Elt F)) :
    after (ops3 (F := F)) W (Proc.tc.devRef main_v6) = mean (F := F) (W (Proc.tc.devRef main_v2)) := by
  after_results_simp
  rfl

set_option maxRecDepth 8192 in
/-- The forty-four operations are the three stretches in a row. -/
theorem ops_split : Cert.ReferenceIdeal.Value.ops (F := F) = ops1 ++ (ops2 ++ ops3) := rfl

/-- After all the operations the result buffer holds the last stage at the two arguments' launch contents. -/
theorem after_main_v6 (m : (ℓ : Loc nD τ sig) → Buf (Elt F) ℓ) (c : Dev nD) :
    after (Cert.ReferenceIdeal.Value.ops (F := F)) (launchContents m c) (Proc.tc.devRef main_v6)
      = Cert.ReferenceIdeal.Read.val_main_v6 (F := F) (m ((c.tc : Thread nD τ).loc main_arg0)) (m ((c.tc : Thread nD τ).loc main_arg1)) := by
  rw [ops_split, after_append, after_append, after3_v6, after2_v2, after1_v0, after1_arg1, take_eq, mean_eq]

end Cert.ReferenceIdeal.Stages

end
-- ==== Proof.LibERealRows.lean ====
/-
  General facts about rows of real numbers inside the extended reals, as float programs read at exact arithmetic
  meet them.

  * The patterns of `-∞`, `+∞` and `1.0` denote `⊥`, `⊤` and `1`.
  * An extended real whose absolute value `max x (−x)` compares below `+∞` is a real.
  * A finite sum of coerced reals is the coerced sum; a finite sum of products of reals is a real.
  * The maximum of a nonempty row of reals, folded from `-∞`, is a real.
  * A softmax does not see a common shift: for a real row `s` and a real `M`,
    `exp (s j − M) / Σ exp (s i − M) = exp (s j) · (1 / Σ exp (s i))`, the quotient and the product with the reciprocal
    being the same because both sums are positive reals.
-/
import Idealize.ShloMosaic.PureOps.Ideal
import Idealize.ShloMosaic.PureOps.Ideal.Laws
import Mathlib.Analysis.SpecialFunctions.Exp

noncomputable section

namespace Cert.ERealRows

open Idealize.ShloMosaic

/-! ## Float literals as extended reals -/

/-- The pattern of `-∞` denotes the bottom element. -/
theorem ofBits_negInf : Ideal.ofBits .f32 0xFF800000#32 = ⊥ := by
  simp [Ideal.ofBits, Ideal.ieee]

/-- The pattern of `+∞` denotes the top element. -/
theorem ofBits_posInf : Ideal.ofBits .f32 0x7F800000#32 = ⊤ := by
  simp [Ideal.ofBits, Ideal.ieee]

/-- The pattern of `1.0` denotes `1`. -/
theorem ofBits_one : Ideal.ofBits .f32 0x3F800000#32 = 1 := by
  simp [Ideal.ofBits, Ideal.ieee, -EReal.coe_mul]; norm_num

/-- An extended real whose absolute value compares below `+∞` is a real: `max x (−x)` is `+∞` at both infinities. -/
theorem real_of_abs_lt_inf (x : EReal) (h : Ideal.cmp .olt (max x (-x)) (Ideal.ofBits .f32 0x7F800000#32) = 1#1) :
    ∃ r : ℝ, x = (r : EReal) := by
  rw [ofBits_posInf] at h
  have hlt : max x (-x) < ⊤ := by
    by_contra hn
    simp [Ideal.cmp, hn] at h
  induction x using EReal.rec with
  | bot => simp at hlt
  | coe r => exact ⟨r, rfl⟩
  | top => simp at hlt

/-! ## Sums and maxima of real rows -/

section Rows

variable {ι : Type*} [Fintype ι]

/-- A finite sum of coerced reals is the coerced sum. -/
theorem coe_sum (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A finite sum of products of coerced reals is a real. -/
theorem sum_mul_real {κ : Type*} [Fintype κ] (u v : κ → ℝ) : ∃ r : ℝ, ∑ k, (u k : EReal) * (v k : EReal) = (r : EReal) :=
  ⟨∑ k, u k * v k, by rw [← coe_sum]; exact Finset.sum_congr rfl fun k _ => (EReal.coe_mul _ _).symm⟩

/-- The maximum of a nonempty row of reals, folded from `-∞`, is a real: it is below `+∞` because every entry is,
    and above `-∞` because some entry is. -/
theorem fold_max_real [Nonempty ι] (f : ι → ℝ) :
    ∃ M : ℝ, (Finset.univ : Finset ι).fold max (⊥ : EReal) (fun j => (f j : EReal)) = (M : EReal) := by
  have h1 : (Finset.univ : Finset ι).fold max (⊥ : EReal) (fun j => (f j : EReal)) ≠ ⊤ := by
    refine ne_of_lt ?_
    rw [Finset.fold_max_lt]
    exact ⟨bot_lt_top, fun x _ => EReal.coe_lt_top _⟩
  have h2 : (Finset.univ : Finset ι).fold max (⊥ : EReal) (fun j => (f j : EReal)) ≠ ⊥ := by
    obtain ⟨j0⟩ := ‹Nonempty ι›
    refine ne_of_gt (lt_of_lt_of_le (EReal.bot_lt_coe (f j0)) ?_)
    rw [Finset.le_fold_max]
    exact Or.inr ⟨j0, Finset.mem_univ _, le_rfl⟩
  exact ⟨_, (EReal.coe_toReal h1 h2).symm⟩

/-- A softmax does not see a common shift, and its quotient is the product with the reciprocal of the unshifted sum:
    `exp (s j − M) = exp (s j) / exp M` with `exp M` a positive real common to numerator and denominator. -/
theorem softmax_shift [Nonempty ι] (s : ι → ℝ) (M : ℝ) (j : ι) :
    Ideal.div (Ideal.exp ((s j : EReal) - (M : EReal))) (∑ i, Ideal.exp ((s i : EReal) - (M : EReal)))
      = Ideal.exp (s j : EReal) * Ideal.div 1 (∑ i, Ideal.exp (s i : EReal)) := by
  have h1 : ∀ i, Ideal.exp ((s i : EReal) - (M : EReal)) = ((Real.exp (s i - M) : ℝ) : EReal) := fun i => by
    rw [← EReal.coe_sub]; rfl
  have h2 : ∀ i, Ideal.exp (s i : EReal) = ((Real.exp (s i) : ℝ) : EReal) := fun i => rfl
  have hS1 : 0 < ∑ i, Real.exp (s i - M) := Finset.sum_pos (fun i _ => Real.exp_pos _) Finset.univ_nonempty
  have hS2 : 0 < ∑ i, Real.exp (s i) := Finset.sum_pos (fun i _ => Real.exp_pos _) Finset.univ_nonempty
  simp only [h1, h2, coe_sum]
  rw [Ideal.div_coe hS1.ne', Ideal.div_coe hS2.ne', one_mul, ← EReal.coe_mul, ← EReal.coe_mul]
  congr 1
  have hsub : ∀ i, Real.exp (s i - M) = Real.exp (s i) / Real.exp M := fun i => Real.exp_sub _ _
  have hM0 : Real.exp M ≠ 0 := (Real.exp_pos M).ne'
  have hS20 : (∑ i, Real.exp (s i)) ≠ 0 := hS2.ne'
  simp only [hsub, ← Finset.sum_div]
  field_simp

end Rows

end Cert.ERealRows

end
-- ==== Proof.RefValue.lean ====
/-
  The reference's mean negative log-likelihood is the shift-free one, for real logits and labels in range.

  Row by row the reference computes the log-softmax with the row's maximum `M` subtracted first,
  `(x_ij − M) − log (0 + Σ_j exp (x_ij − M))`, takes the entry at the label (a label in `[0, 6)` needs no wrap-around
  and passes the range test, so the fill value is never selected), and negates it. For a real row, `M` is a real and the
  shift cancels: the row's term is `log (Σ_j exp x_ij) − x_{i, t_i}`, and the logit at the label is the sum over the six
  classes of the logit where the class index equals the label and zero elsewhere. The rows' sum from zero, divided by
  the number of rows, is then the same on both sides.
-/
import proofs.«417771_j1460288881356_3_alg».proof.Proof.RefRead
import proofs.«417771_j1460288881356_3_alg».proof.Proof.Spec
import proofs.«417771_j1460288881356_3_alg».proof.Proof.LibERealRows
import proofs.«417771_j1460288881356_3_alg».proof.Proof.LibLogSumExp
import Idealize.ShloMosaic.Lib.ValueIdx
import Idealize.ShloMosaic.Lib.ReduceAll

noncomputable section

namespace Cert.ReferenceIdeal.RefValue

open Cert.ReferenceIdeal Cert.ReferenceIdeal.Gen Idealize.ShloMosaic Idealize.ShloMosaic.ValueIdx

/-! ## The labels -/

/-- A label in `[0, 6)` read as a signed integer is its unsigned value, below 6. -/
theorem toNat_label {w : BitVec 32} (h : 0 ≤ w.toInt ∧ w.toInt < 6) : w.toInt = w.toNat ∧ w.toNat < 6 := by
  have hlt : w.toNat < 2 ^ 32 := w.isLt
  rw [BitVec.toInt_eq_toNat_cond] at h
  rw [BitVec.toInt_eq_toNat_cond]
  split at h <;> rename_i hc
  · rw [if_pos hc]; omega
  · omega

/-- The start index the gather reads is the row's label: a label that is not negative is not wrapped around. -/
theorem label_read (t : (⟨S8388608, .i32⟩ : BufTy).Contents (Elt Ideal))
    (ht : ∀ k : S8388608.Idx, 0 ≤ (t k).toInt ∧ (t k).toInt < 6) (p : S8388608x1x1.Idx) :
    Read.val_main_call1_v5 (F := Ideal) t p = t (Read.idx_main_v1 (Read.idx_main_call1_v5 p)) := by
  rw [Read.val_main_call1_v5_apply, Read.val_main_call1_v4_apply, Read.val_main_call1_v1_apply, Read.val_main_v1_apply,
    Read.val_main_call1_v0_apply, Read.val_main_call1_c_apply]
  have h0 : IntOp.cmpi .slt (t (Read.idx_main_v1 (Read.idx_main_call1_v5 p))) 0#32 = 0#1 := by
    refine eq_zero_of_ne_one fun h => ?_
    have h1 := IntOp.cmpi_slt.1 h
    have h2 := (ht (Read.idx_main_v1 (Read.idx_main_call1_v5 p))).1
    have h3 : (0#32 : BitVec 32).toInt = 0 := by decide
    omega
  rw [h0, select_zero]

/-- Every label passes the gather's range test `0 ≤ · ≤ 5`. -/
theorem inrange_one (t : (⟨S8388608, .i32⟩ : BufTy).Contents (Elt Ideal))
    (ht : ∀ k : S8388608.Idx, 0 ≤ (t k).toInt ∧ (t k).toInt < 6) (p : S8388608x1x1.Idx) :
    Read.val_main_call1_v11 (F := Ideal) t p = 1#1 := by
  rw [Read.val_main_call1_v11_apply, Read.val_main_call1_v7_apply, Read.val_main_call1_v10_apply, label_read t ht,
    Read.val_main_call1_v6_apply, Read.val_main_call1_c_2_apply, Read.val_main_call1_v9_apply, Read.val_main_call1_v8_apply,
    Read.val_main_call1_c_1_apply]
  have h := ht (Read.idx_main_v1 (Read.idx_main_call1_v5 p))
  have h0 : (0#32 : BitVec 32).toInt = 0 := by decide
  have h5 : (5#32 : BitVec 32).toInt = 5 := by decide
  exact IntOp.andi_eq_one.2 ⟨IntOp.cmpi_sge.2 (by omega), IntOp.cmpi_sle.2 (by omega)⟩

/-- A fold of "and" from `1` over entries that are all `1` is `1`. -/
theorem fold_andi_one {ι : Type} (S : Finset ι) (f : ι → BitVec 1) (hf : ∀ i ∈ S, f i = 1#1) :
    S.fold IntOp.andi 1#1 f = 1#1 := by
  induction S using Finset.cons_induction with
  | empty => rfl
  | cons a S ha ih =>
    rw [Finset.fold_cons, hf a (Finset.mem_cons_self a S), ih fun i hi => hf i (Finset.mem_cons.2 (Or.inr hi))]
    rfl

/-- So the range test, folded over its axis of one entry, is `1` in every row. -/
theorem allrange_one (t : (⟨S8388608, .i32⟩ : BufTy).Contents (Elt Ideal))
    (ht : ∀ k : S8388608.Idx, 0 ≤ (t k).toInt ∧ (t k).toInt < 6) (j : S8388608x1.Idx) :
    Read.val_main_call1_v12 (F := Ideal) t j = 1#1 := by
  unfold Read.val_main_call1_v12
  rw [Host.reduce_eq_fold]
  exact fold_andi_one _ _ fun p _ => inrange_one t ht p

/-! ## The gather

The gather's dimension numbers: the row axis is a batching axis on both sides, the class axis is collapsed and is the
one axis the start index names; the index vector lies along the start indices' last axis, of size one. -/

/-- The gather's dimension numbers. -/
abbrev G : GatherDims S8388608x6 S8388608x1x1 S8388608x1 := gather_S8388608x6_S8388608x1x1_S8388608x1_n_1_0_0_1_2_11

/-- Row `i`'s label as a class index. -/
def lab (t : (⟨S8388608, .i32⟩ : BufTy).Contents (Elt Ideal))
    (ht : ∀ k : S8388608.Idx, 0 ≤ (t k).toInt ∧ (t k).toInt < 6) (i : Fin 8388608) : Fin 6 :=
  ⟨(t (ix1 i)).toNat, (toNat_label (ht (ix1 i))).2⟩

/-- The operand's row axis is paired with the start indices' row axis; the start indices' two axes that are not the
    index vector's are read off the result's two axes, in order. -/
theorem batching_pair : G.startIndicesBatchingDims[List.idxOf (0 : Fin 2) G.operandBatchingDims]? = some (0 : Fin 3) := by decide
theorem batch_axis0 : G.batchDims[G.siKept.idxOf (0 : Fin 3)]? = some (0 : Fin 2) := by decide
theorem batch_axis1 : G.batchDims[G.siKept.idxOf (1 : Fin 3)]? = some (1 : Fin 2) := by decide

/-- The start indices' row coordinate is the result's row coordinate. -/
theorem siCoord0 (j : S8388608x1.Idx) (hb : (0 : Fin 3) ∈ G.siKept) : (G.siCoord j 0 hb).val = (j 0).val :=
  congrArg (fun a => (j a).val) ((List.getElem_eq_iff _).2 batch_axis0)

/-- The start indices' middle coordinate is the result's second coordinate. -/
theorem siCoord1 (j : S8388608x1.Idx) (hb : (1 : Fin 3) ∈ G.siKept) : (G.siCoord j 1 hb).val = (j 1).val :=
  congrArg (fun a => (j a).val) ((List.getElem_eq_iff _).2 batch_axis1)

/-- On the row axis the operand's batching coordinate is the result's row. -/
theorem batch0 (j : S8388608x1.Idx) : G.batchCoord j (0 : Fin 2) = (j 0).val := by
  unfold GatherDims.batchCoord
  rw [dif_pos (show (0 : Fin 2) ∈ G.operandBatchingDims from List.mem_singleton.2 rfl)]
  have e : ∀ (b : Fin 3) (hb : b ∈ G.siKept), b = 0 → (G.siCoord j b hb).val = (j 0).val := by
    intro b hb h0; subst h0; exact siCoord0 j hb
  exact e _ _ ((List.getElem_eq_iff _).2 batching_pair)

/-- The start-indices index a result index reads: its own two coordinates, then the one place of the index vector. -/
theorem siIdx_at0 (j : S8388608x1.Idx) (c : Fin G.startIndexMap.length) : (G.siIdx j c (0 : Fin 3)).val = (j 0).val := by
  unfold GatherDims.siIdx
  rw [dif_neg (show ¬ ((0 : Fin 3).val = G.indexVectorDim) by decide)]
  exact siCoord0 _ _
theorem siIdx_at1 (j : S8388608x1.Idx) (c : Fin G.startIndexMap.length) : (G.siIdx j c (1 : Fin 3)).val = (j 1).val := by
  unfold GatherDims.siIdx
  rw [dif_neg (show ¬ ((1 : Fin 3).val = G.indexVectorDim) by decide)]
  exact siCoord1 _ _
theorem siIdx_at2 (j : S8388608x1.Idx) (c : Fin G.startIndexMap.length) : (G.siIdx j c (2 : Fin 3)).val = 0 := by
  unfold GatherDims.siIdx
  rw [dif_pos (show (2 : Fin 3).val = G.indexVectorDim by decide)]
  have h := c.isLt
  have hl : G.startIndexMap.length = 1 := rfl
  show c.val = 0
  omega

/-- The start index of result row `i` is read at `(i, 0, 0)`. -/
theorem siIdx_read (i : Fin 8388608) (c : Fin G.startIndexMap.length) : G.siIdx (ix2 i 0) c = ix3 i 0 0 := by
  funext b; refine Fin.ext ?_
  match b with
  | ⟨0, _⟩ => exact siIdx_at0 _ _
  | ⟨1, _⟩ => exact siIdx_at1 _ _
  | ⟨2, _⟩ => exact siIdx_at2 _ _

/-- The operand's row coordinate: the result's row. -/
theorem row_coord {w : Nat} (idx : IVec S8388608x1x1 w) (i : Fin 8388608) :
    G.start (ix2 i 0) idx (0 : Fin 2) + G.batchCoord (ix2 i 0) (0 : Fin 2) + G.offCoord (ix2 i 0) (0 : Fin 2) = i.val := by
  rw [GatherDims.start_batching _ _ _ _ (List.mem_singleton.2 rfl),
    GatherDims.offCoord_eq_zero _ _ _ (fun h => ((GatherDims.mem_sKept _ _).1 h).2 (List.mem_singleton.2 rfl)), batch0]
  show 0 + i.val + 0 = i.val
  omega

/-- The operand's class coordinate: the start index at `(i, 0, 0)`, read signed and clamped into `[0, 5]`. -/
theorem class_coord {w : Nat} (idx : IVec S8388608x1x1 w) (i : Fin 8388608) :
    G.start (ix2 i 0) idx (1 : Fin 2) + G.batchCoord (ix2 i 0) (1 : Fin 2) + G.offCoord (ix2 i 0) (1 : Fin 2)
      = min (idx (ix3 i 0 0)).toInt.toNat 5 := by
  rw [GatherDims.batchCoord_eq_zero _ _ _ (show (1 : Fin 2) ∉ G.operandBatchingDims by decide),
    GatherDims.offCoord_eq_zero _ _ _ (fun h => ((GatherDims.mem_sKept _ _).1 h).1 (List.mem_singleton.2 rfl))]
  unfold GatherDims.start
  rw [dif_pos (show (1 : Fin 2) ∈ G.startIndexMap from List.mem_singleton.2 rfl), siIdx_read]
  rfl

/-- The gather at row `i` reads the log-softmax at `(i, label i)`: the batching axis gives the row, and the start
    index on the class axis is the label, which the clamp into `[0, 5]` leaves alone. -/
theorem gather_read (x : (⟨S8388608x6, .f32⟩ : BufTy).Contents (Elt Ideal)) (t : (⟨S8388608, .i32⟩ : BufTy).Contents (Elt Ideal))
    (ht : ∀ k : S8388608.Idx, 0 ≤ (t k).toInt ∧ (t k).toInt < 6) (i : Fin 8388608) :
    Read.val_main_call1_v13 (F := Ideal) x t (ix2 i 0) = Read.val_main_v0 (F := Ideal) x (ix2 i (lab t ht i)) := by
  unfold Read.val_main_call1_v13 Host.gather
  refine congrArg _ (funext fun a => Fin.ext ?_)
  show G.start (ix2 i 0) _ a + G.batchCoord (ix2 i 0) a + G.offCoord (ix2 i 0) a = _
  match a with
  | ⟨0, _⟩ => exact row_coord _ i
  | ⟨1, _⟩ =>
    refine (class_coord _ i).trans ?_
    rw [label_read t ht]
    have hidx : Read.idx_main_v1 (Read.idx_main_call1_v5 (ix3 i 0 0)) = ix1 i := by
      funext b; match b with | ⟨0, _⟩ => exact Fin.ext (by simp)
    rw [hidx]
    have h := toNat_label (ht (ix1 i))
    show min (t (ix1 i)).toInt.toNat 5 = (t (ix1 i)).toNat
    omega

/-! ## The log-softmax of a real row -/

/-- The class axis dropped from the logits' shape leaves the rows' shape. -/
theorem reduces_rows : S8388608x6.Reduces [1] S8388608 := by decide

/-- The logits' index over row `i` with class coordinate `k`. -/
theorem lift_row (i : Fin 8388608) (k : Fin 6) : reduces_rows.lift (ix1 i) k = ix2 i k := by
  funext c; refine Fin.ext ?_
  show reduces_rows.liftVal (ix1 i) k.val c = (ix2 i k c).val
  match c with
  | ⟨0, _⟩ => rfl
  | ⟨1, _⟩ => rfl

/-- The maximum of a real row, folded from `-∞` and then taken once more against `-∞`, is a real. -/
theorem rowmax_real (x : (⟨S8388608x6, .f32⟩ : BufTy).Contents (Elt Ideal)) (r : S8388608x6.Idx → ℝ)
    (hr : ∀ k : S8388608x6.Idx, x k = (r k : EReal)) (i : Fin 8388608) :
    ∃ M : ℝ, Read.val_main_call0_v2 (F := Ideal) x (ix1 i) = (M : EReal) := by
  obtain ⟨M, hM⟩ := Cert.ERealRows.fold_max_real (fun k : Fin 6 => r (ix2 i k))
  refine ⟨M, ?_⟩
  rw [Read.val_main_call0_v2_apply, Read.val_main_call0_v1_apply, Read.val_main_call0_cst_0_apply, Ideal.ofBits_def,
    Cert.ERealRows.ofBits_negInf, Ideal.maximumf_def]
  have hfold := Host.reduce_eq_fold_single (FloatOps.maximumf (F := Ideal) (φ := .f32)) x (Read.val_main_call0_cst (F := Ideal))
    reducesTo_S8388608x6_S8388608_d1 reduces_rows h_S_ (ix1 i)
  unfold Read.val_main_call0_v0
  rw [hfold, Read.val_main_call0_cst_apply, Ideal.ofBits_def, Cert.ERealRows.ofBits_negInf]
  have hrow : (x ∘ reduces_rows.lift (ix1 i)) = fun k : Fin 6 => (r (ix2 i k) : EReal) := by
    funext k
    exact (congrArg x (lift_row i k)).trans (hr (ix2 i k))
  rw [hrow]
  show max ⊥ (Finset.univ.fold max ⊥ fun k : Fin 6 => (r (ix2 i k) : EReal)) = M
  rw [hM]
  exact max_eq_right bot_le

/-- The log-softmax of a real row, as the reference computes it: with the row's maximum `M`, a real, subtracted
    first. -/
theorem logsoftmax_read (x : (⟨S8388608x6, .f32⟩ : BufTy).Contents (Elt Ideal)) (r : S8388608x6.Idx → ℝ)
    (hr : ∀ k : S8388608x6.Idx, x k = (r k : EReal)) (i : Fin 8388608) :
    ∃ M : ℝ, ∀ k : Fin 6, Read.val_main_v0 (F := Ideal) x (ix2 i k)
      = ((r (ix2 i k) : EReal) - (M : EReal))
        - Ideal.log (0 + ∑ j : Fin 6, Ideal.exp ((r (ix2 i j) : EReal) - (M : EReal))) := by
  obtain ⟨M, hM⟩ := rowmax_real x r hr i
  refine ⟨M, fun k => ?_⟩
  -- the shifted logits
  have h5 : ∀ k : Fin 6, Read.val_main_call0_v5 (F := Ideal) x (ix2 i k) = (r (ix2 i k) : EReal) - (M : EReal) := by
    intro k
    have hidx : Read.idx_main_call0_v3 (Read.idx_main_call0_v4 (ix2 i k)) = ix1 i := by
      funext a; match a with | ⟨0, _⟩ => rfl
    rw [Read.val_main_call0_v5_apply, Read.val_main_call0_v4_apply, Read.val_main_call0_v3_apply, hidx, hM, Ideal.subf_def, hr]
  -- the row's exponential sum
  have hidx8 : Read.idx_main_call0_v8 (Read.idx_main_call0_v10 (ix2 i k)) = ix1 i := by
    funext a; match a with | ⟨0, _⟩ => rfl
  have hsum : ∑ j : Fin 6, Read.val_main_call0_v6 (F := Ideal) x (Read.idx_main_call0_v7 (ix1 i) j)
      = ∑ j : Fin 6, Ideal.exp ((r (ix2 i j) : EReal) - (M : EReal)) := by
    refine Finset.sum_congr rfl fun j _ => ?_
    have hidx7 : Read.idx_main_call0_v7 (ix1 i) j = ix2 i j := by
      funext a; match a with | ⟨0, _⟩ => rfl | ⟨1, _⟩ => rfl
    rw [hidx7, Read.val_main_call0_v6_apply, Ideal.hostUnary_exp_def, h5]
  rw [Read.val_main_v0_apply, Read.val_main_call0_v10_apply, Read.val_main_call0_v9_apply, Read.val_main_call0_v8_apply, hidx8,
    Read.val_main_call0_v7_apply, hsum, Read.val_main_call0_cst_1_apply, Ideal.ofBits_def, Ideal.ofBits_zero_f32, Ideal.subf_def,
    Ideal.hostUnary_log_def, h5]

/-! ## A row, and the mean -/

/-- A class index, as a 32-bit word, is row `i`'s label exactly when it is the label's class. -/
theorem ofNat_eq_label_iff (t : (⟨S8388608, .i32⟩ : BufTy).Contents (Elt Ideal))
    (ht : ∀ k : S8388608.Idx, 0 ≤ (t k).toInt ∧ (t k).toInt < 6) (i : Fin 8388608) (j : Fin 6) :
    BitVec.ofNat 32 j.val = t (ix1 i) ↔ j = lab t ht i := by
  constructor
  · intro h
    refine Fin.ext ?_
    have h1 := congrArg BitVec.toNat h
    rw [BitVec.toNat_ofNat] at h1
    have hj := j.isLt
    show j.val = (t (ix1 i)).toNat
    omega
  · intro h
    subst h
    apply BitVec.eq_of_toNat_eq
    rw [BitVec.toNat_ofNat]
    exact Nat.mod_eq_of_lt (t (ix1 i)).isLt

/-- Row `i` of the reference's negated pick is the row's shift-free negative log-likelihood. -/
theorem row_eq (x : (⟨S8388608x6, .f32⟩ : BufTy).Contents (Elt Ideal)) (t : (⟨S8388608, .i32⟩ : BufTy).Contents (Elt Ideal)) (r : S8388608x6.Idx → ℝ)
    (hr : ∀ k : S8388608x6.Idx, x k = (r k : EReal))
    (ht : ∀ k : S8388608.Idx, 0 ≤ (t k).toInt ∧ (t k).toInt < 6) (i : Fin 8388608) :
    Read.val_main_v4 (F := Ideal) x t (ix1 i) = Cert.Xent.nll x t i := by
  obtain ⟨M, hM⟩ := logsoftmax_read x r hr i
  have hidx3 : Read.idx_main_v3 (ix1 i) = ix2 i 0 := by
    funext a; match a with | ⟨0, _⟩ => exact Fin.ext (by simp) | ⟨1, _⟩ => rfl
  -- the reference's side: the range test passes, the gather reads the label's entry, and the shift cancels
  rw [Read.val_main_v4_apply, Ideal.hostNegf_def, Ideal.negf_def, Read.val_main_v3_apply, hidx3, Read.val_main_v2_apply,
    allrange_one t ht, select_one, gather_read x t ht, hM,
    Cert.LogSumExp.neg_logSoftmax_shift (fun j : Fin 6 => r (ix2 i j)) M (lab t ht i)]
  -- the other side: the logits are the reals, and the masked sum is the label's entry
  have hpick : ∑ j : Fin 6, (if BitVec.ofNat 32 j.val = t (ix1 i) then x (ix2 i j) else 0) = (r (ix2 i (lab t ht i)) : EReal) := by
    rw [← Cert.LogSumExp.sum_ite_entry (fun j : Fin 6 => (r (ix2 i j) : EReal)) (lab t ht i)]
    refine Finset.sum_congr rfl fun j _ => ?_
    rw [hr]
    exact if_congr (ofNat_eq_label_iff t ht i j) rfl rfl
  have hexp : ∑ j : Fin 6, Ideal.exp (x (ix2 i j)) = ∑ j : Fin 6, Ideal.exp (r (ix2 i j) : EReal) :=
    Finset.sum_congr rfl fun j _ => by rw [hr]
  unfold Cert.Xent.nll
  rw [hpick, hexp]

/-- For real logits and labels in `[0, 6)` the reference's last stage is the mean shift-free negative log-likelihood. -/
theorem val_eq_loss (x : (⟨S8388608x6, .f32⟩ : BufTy).Contents (Elt Ideal)) (t : (⟨S8388608, .i32⟩ : BufTy).Contents (Elt Ideal))
    (hx : ∀ k : S8388608x6.Idx, ∃ r : ℝ, x k = (r : EReal))
    (ht : ∀ k : S8388608.Idx, 0 ≤ (t k).toInt ∧ (t k).toInt < 6) :
    Cert.ReferenceIdeal.Read.val_main_v6 (F := Ideal) x t = Cert.Xent.loss x t := by
  choose r hr using hx
  funext i0
  -- the rows' sum, re-indexed by the row number
  have hsum : ∑ j : S8388608.Idx, Read.val_main_v4 (F := Ideal) x t j = ∑ i : Fin 8388608, Cert.Xent.nll x t i := by
    refine Fintype.sum_equiv (⟨fun j => j 0, fun i => ix1 i, fun j => (eq_ix1 j).symm, fun i => rfl⟩ : S8388608.Idx ≃ Fin 8388608) _ _
      fun j => ?_
    exact (congrArg (Read.val_main_v4 (F := Ideal) x t) (eq_ix1 j)).trans (row_eq x t r hr ht (j 0))
  unfold Cert.Xent.loss
  rw [Read.val_main_v6_apply, Read.val_main_v5_apply, hsum, Read.val_main_cst_apply, Read.val_main_cst_0_apply, Ideal.hostDivf_def,
    Ideal.ofBits_def, Ideal.ofBits_def, Ideal.ofBits_zero_f32]

end Cert.ReferenceIdeal.RefValue

end
-- ==== Proof.PreDecode.lean ====
/-
  Reading the precondition back: when the printed predicate evaluates to "true" on the two argument arrays, every
  logit is a real number (its absolute value compares below +∞) and every label lies in the label range: it is at
  least 0 and below 6, read as a signed 32-bit integer.

  The predicate is the conjunction of three "for all entries" tests, each a fold of "and" from "true" over a
  comparison taken entry by entry; a fold of "and" that ends at "true" had "true" at every entry.
-/
import proofs.«417771_j1460288881356_3_alg».proof.Pre_finite_inputs
import Idealize.ShloMosaic.PureOps.Ideal
import Idealize.ShloMosaic.Lib.ReduceAll
import Idealize.ShloMosaic.Lib.ValueIdx
import Idealize.ShloMosaic.Lib.StableHlo.Predicate
import proofs.«417771_j1460288881356_3_alg».proof.Proof.LibERealRows

noncomputable section

namespace Cert.Xent.Pre

open Idealize.ShloMosaic Idealize.ShloMosaic.ValueIdx

/-- From the precondition: every logit is a real, and every label is in `[0, 6)` as a signed integer. -/
theorem of_pre [Cert.Pre_finite_inputs.Facts]
    (x : FVec Ideal Cert.Pre_finite_inputs.S8388608x6 .f32) (t : IVec Cert.Pre_finite_inputs.S8388608 32)
    (h : Cert.Pre_finite_inputs.fn (F := Ideal) x t = fun _ => 1#1) :
    (∀ k : Cert.Pre_finite_inputs.S8388608x6.Idx, ∃ r : ℝ, x k = (r : EReal))
      ∧ (∀ k : Cert.Pre_finite_inputs.S8388608.Idx, 0 ≤ (t k).toInt ∧ (t k).toInt < 6) := by
  -- the predicate at its one index: a conjunction of three folds of "and"
  have h0 := congrFun h ValueIdx.ix0
  dsimp only [Cert.Pre_finite_inputs.fn] at h0
  haveI : Subsingleton Cert.Pre_finite_inputs.S_.Idx := ⟨fun a b => funext fun d => d.elim0⟩
  obtain ⟨h12, h3⟩ := IntOp.andi_eq_one.1 h0
  obtain ⟨h1, h2⟩ := IntOp.andi_eq_one.1 h12
  refine ⟨fun k => ?_, fun k => ⟨?_, ?_⟩⟩
  · -- the logit's absolute value compares below +∞
    have e := Host.reduce_andi_all _ _ _ _ _ h1 k
    exact Cert.ERealRows.real_of_abs_lt_inf (x k) e
  · -- the label is at least 0
    have e := Host.reduce_andi_all _ _ _ _ _ h2 k
    have e' : (0#32 : BitVec 32).toInt ≤ (t k).toInt := IntOp.cmpi_sge.1 e
    simpa using e'
  · -- the label is below 6
    have e := Host.reduce_andi_all _ _ _ _ _ h3 k
    have e' : (t k).toInt < (6#32 : BitVec 32).toInt := IntOp.cmpi_slt.1 e
    simpa using e'

end Cert.Xent.Pre

end
-- ==== Proof.lean ====
/-
  The mean softmax cross-entropy of 8388608 rows of six logits, computed by a kernel that keeps 65536 lane-wise partial
  sums per part and never subtracts the row maximum, against the reference that takes the log-softmax with the row
  maximum subtracted, picks the label's entry and averages.

  The precondition asks that every logit be finite and every label lie in the label range [0, 6). Under it both
  programs end holding the same extended real: the rows' sum, from zero, of `log (Σ_j exp x_ij) − x_{i, t_i}`, divided by
  the number of rows. On the kernel's side this is the value read off the frame run (Proof/KernelResult.lean); on the
  reference's side it is the last stage of its run (Proof/RefStages.lean) read row by row, where for a real row the
  shift by the maximum cancels (Proof/RefValue.lean). The three frame claims are the runs with the values dropped, and
  the idealization rewrote nothing.
-/
import proofs.«417771_j1460288881356_3_alg».proof.Defs
import proofs.«417771_j1460288881356_3_alg».proof.Proof.Gen.Kernel
import proofs.«417771_j1460288881356_3_alg».proof.Proof.Gen.Kernel.Frame
import proofs.«417771_j1460288881356_3_alg».proof.Proof.Gen.KernelIdeal
import proofs.«417771_j1460288881356_3_alg».proof.Proof.Gen.KernelIdeal.Frame
import proofs.«417771_j1460288881356_3_alg».proof.Proof.Gen.ReferenceIdeal
import proofs.«417771_j1460288881356_3_alg».proof.Proof.Gen.Pre_finite_inputs
import proofs.«417771_j1460288881356_3_alg».proof.Proof.KernelResult
import proofs.«417771_j1460288881356_3_alg».proof.Proof.RefRun
import proofs.«417771_j1460288881356_3_alg».proof.Proof.RefStages
import proofs.«417771_j1460288881356_3_alg».proof.Proof.RefValue
import proofs.«417771_j1460288881356_3_alg».proof.Proof.PreDecode
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the mean negative log-likelihood of the launched arrays. -/
theorem algebraic : Cert.algebraic_KernelIdeal_ReferenceIdeal := by
  intro m ρ m' ρ' hpre hagree
  refine ⟨fun c => Cert.Xent.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.XValue.run m ρ, ?_⟩
  refine (θ_run Cert.ReferenceIdeal.defs _ _).mono (fun _ h c => ⟨(h c).1.trans ?_, (h c).2⟩)
    (Cert.ReferenceIdeal.Value.run (F := Ideal) m' ρ')
  obtain ⟨hx, ht⟩ := Cert.Xent.Pre.of_pre _ _ (hpre c)
  rw [Cert.ReferenceIdeal.Stages.after_main_v6, (hagree c).1, (hagree c).2]
  exact Cert.ReferenceIdeal.RefValue.val_eq_loss _ _ hx ht

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
